-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S4096x1024 : Shape := ⟨2, ![4096, 1024]⟩
abbrev S512x1024 : Shape := ⟨2, ![512, 1024]⟩
abbrev S512x3072 : Shape := ⟨2, ![512, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S2x2048x1024, .bf16⟩
  | .hbm, ⟨16, _⟩ => ⟨S2x2048x1024, .bf16⟩
  | .hbm, ⟨17, _⟩ => ⟨S2x2048x1024, .bf16⟩
  | .hbm, ⟨18, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x512x128, .f32⟩
  | .local _ .vmem, ⟨17, _⟩ => ⟨S1x512x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  bcast_S3072_S1x3072_1 : S3072.BroadcastsInDim S1x3072 (![1] : Fin 1 → Fin S1x3072.rank)
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x1024 : S4096x1024.ShapeCasts S2x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x1024.size a
  hwx1_0 : ∀ i : grid1.Coords, EltTy.bits .bf16 = 32 ∨ (Rect.block (s := S2x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .f32 = 32 ∨ (Rect.block (s := S2x2048x1024) S1x512x128.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x2048x1024, .f32⟩
  | .hbm, ⟨8, _⟩ => ⟨S1x1x1024, .f32⟩
  | .hbm, ⟨9, _⟩ => ⟨S2x2048x1024, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x16x64, .f32⟩
  | .hbm, ⟨18, _⟩ => ⟨S2x16x2048x64, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x16x2048x2048, .f32⟩
  | .hbm, ⟨26, _⟩ => ⟨S_, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S_, .f32⟩
  | .hbm, ⟨32, _⟩ => ⟨S2x16x2048, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x64, .f32⟩
  | .hbm, ⟨44, _⟩ => ⟨S2x2048x16x64, .f32⟩
  | .hbm, ⟨45, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.ProjBody.lean ====
/-
  The projection region (the first pallas_call): one grid axis of 8 points; at point t the body reads rows
  [512 t, 512 t + 512) of the flattened activations, the whole concatenated weight matrix and the whole bias row,
  forms  y = x · W + bias  (a 512 × 3072 block) and stores its three column thirds into the three output windows.

  Stated here, at any float instance and for any contents V the region is entered with: each window's block at a point;
  what each output's staging buffer holds after the body (the canon of its one store, over the body's payloads); the
  body's triple; the pipeline's proof data and the body obligation at every point.
-/
import proofs.«417899_j21706764714760_3_alg».proof.Proof.Gen.Kernel.Launch
import proofs.«417899_j21706764714760_3_alg».proof.Proof.Gen.Kernel.Skeleton
import proofs.«417899_j21706764714760_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the index map selects. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved since the point that did fetch it. -/
theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-! ## The body's accesses: every load and store takes its buffer whole -/

abbrev rAct : Rect S512x1024 := Rect.unit (s := S512x1024) ![0, 0] S512x1024.size inb_S512x1024_S512x1024_0_0
abbrev rWgt : Rect S1024x3072 := Rect.unit (s := S1024x3072) ![0, 0] S1024x3072.size inb_S1024x3072_S1024x3072_0_0
abbrev rBias : Rect S1x3072 := Rect.unit (s := S1x3072) ![0, 0] S1x3072.size inb_S1x3072_S1x3072_0_0

/-! ## What the body leaves in each output window's buffer -/

/-- The first column third of  x · W + bias  (the query projection's block). -/
def pout3 (x0 : Vec F S512x1024 .f32) (x1 : Vec F S1024x3072 .bf16) (x2 : Vec F S1x3072 .f32) : Vec F S512x1024 .bf16 :=
  View.canon [⟨rAct, k0_pay2 (View.ld x0 rAct) (View.ld x1 rWgt) (View.ld x2 rBias)⟩]
/-- The second column third (the key projection's block). -/
def pout4 (x0 : Vec F S512x1024 .f32) (x1 : Vec F S1024x3072 .bf16) (x2 : Vec F S1x3072 .f32) : Vec F S512x1024 .bf16 :=
  View.canon [⟨rAct, k0_pay3 (View.ld x0 rAct) (View.ld x1 rWgt) (View.ld x2 rBias)⟩]
/-- The last column third (the value projection's block). -/
def pout5 (x0 : Vec F S512x1024 .f32) (x1 : Vec F S1024x3072 .bf16) (x2 : Vec F S1x3072 .f32) : Vec F S512x1024 .bf16 :=
  View.canon [⟨rAct, k0_pay4 (View.ld x0 rAct) (View.ld x1 rWgt) (View.ld x2 rBias)⟩]

/-- One store of the whole buffer covers it. -/
theorem pcover (p0 : Vec F S512x1024 .bf16) (y : S512x1024.Idx) :
    ∃ pc ∈ ([⟨rAct, p0⟩] : List (View.Piece (Elt F) S512x1024 .bf16)), y ∈ pc.1.set :=
  View.cover_of_tiled [⟨rAct, p0⟩] S512x1024.size (by rfl) y

/-! ## The body's triple -/

set_option maxHeartbeats 1000000 in
/-- The projection body on whole staging memrefs — the three inputs' at read contents, the three outputs' at anything —
    runs to a continuation holding the inputs' as they were and each output's at its column third. -/
theorem sound_proj (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (pout3 x0 x1 x2) ∗ owns (c : Thread nD τ) arg5 fullShare (pout4 x0 x1 x2)
            ∗ owns (c : Thread nD τ) arg6 fullShare (pout5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (pcover _)
  isplitl [H4]
  · iexists _; isplitr
    swap; · iexact H4
    ipureintro
    exact View.read_writes_eq_canon _ _ _ (pcover _)
  iexists _; isplitr
  swap; · iexact H5
  ipureintro
  exact View.read_writes_eq_canon _ _ _ (pcover _)

/-! ## The pipeline's proof data -/

/-- The projection pipeline's proof data on core `c`: the arrays as the region finds them; after the body at point `t`
    each input's buffer at its block and each output's at its column third of the input blocks; the scoped rest and
    the generator register untouched; nothing owed; full shares. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => pout3 (pblk V c 0 t) (pblk V c 1 t) (pblk V c 2 t)
    | ⟨4, _⟩ => pout4 (pblk V c 0 t) (pblk V c 1 t) (pblk V c 2 t)
    | ⟨5, _⟩ => pout5 (pblk V c 0 t) (pblk V c 1 t) (pblk V c 2 t)
  Φ _ := Pipeline.ΦA spec0 c
  q _ := fullShare
  owed _ := 0

theorem pA_eq (c : Dev nD) (w : Fin cfg0.W) : (pdat V c).A w = V c (Pipeline.arrRef spec0 w) := by
  dsimp only [pdat]

theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pblk V c 2 t := by dsimp only [pdat]
theorem pafter3 (c : Dev nD) (t : Fin cfg0.N) : (pdat V c).after 3 t = pout3 (pblk V c 0 t) (pblk V c 1 t) (pblk V c 2 t) := by dsimp only [pdat]
theorem pafter4 (c : Dev nD) (t : Fin cfg0.N) : (pdat V c).after 4 t = pout4 (pblk V c 0 t) (pblk V c 1 t) (pblk V c 2 t) := by dsimp only [pdat]
theorem pafter5 (c : Dev nD) (t : Fin cfg0.N) : (pdat V c).after 5 t = pout5 (pblk V c 0 t) (pblk V c 1 t) (pblk V c 2 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d
theorem pbefore2 (c : Dev nD) (t : Fin cfg0.N) (d) : (pdat V c).before 2 t d = pblk V c 2 t :=
  pbefore2_of V (pdat V c) (pA_eq V c 2) (pafter2 V c) t d

/-! ## The body obligation, at a generic point -/

/-- What the body is called with at point `t`, the windows one by one, -/
def pbodyPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d))
    ∗ (∃ d, owns (c : Thread nD τ) (st0_5 t) fullShare ((pdat V c).before 5 t d)))

/-- and what it returns. -/
def pbodyPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t)
    ∗ owns (c : Thread nD τ) (st0_5 t) fullShare ((pdat V c).after 5 t))

/-- The body at any point: the inputs' memrefs hold their blocks, so the body's triple applies; the invariant and the
    core's dues pass through unread. -/
theorem sound_pbody (c : Dev nD) (t : Fin cfg0.N) :
    pbodyPre V c t ⊢ wp frame (wpE (defs₀ (F := F)) Variants.none c none) Set.univ (bodyAt0 t) (fun _ => pbodyPost V c t) := by
  unfold pbodyPre pbodyPost bodyAt0
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3, pafter4, pafter5]
  iintro ⟨HΦ, Ho, ⟨%d0, H0⟩, ⟨%d1, H1⟩, ⟨%d2, H2⟩, ⟨%d3, H3⟩, ⟨%d4, H4⟩, ⟨%d5, H5⟩⟩
  iapply (sound_proj c Set.univ _ _ _ _ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem pbody_obligation (c : Dev nD) : BodyObligation (pdat (F := F) V c) (defs₀ (F := F)) Variants.none () Set.univ := fun t => by
  rw [bigSep_W0, bigSep_W0]
  exact sound_pbody V c t

end Cert.Kernel.Hand

end
-- ==== Proof.K.AttnBody.lean ====
/-
  The attention region (the second pallas_call): a grid of 2 × 8 × 4 points (batch, pair of heads, block of 512
  query rows). At a point the body reads a 512 × 128 block of the query projection and the whole 2048 × 128 column
  pair of the key and of the value projection; for each of the pair's two heads (a 64-column half) it forms the scaled
  scores, subtracts each row's maximum, exponentiates, sums, multiplies the weights into the values and divides by
  the sums; the two 512 × 64 results side by side are the 512 × 128 output block.

  Stated here, at any float instance and for any contents V the region is entered with: each window's block at a point;
  what the output's staging buffer holds after the body (the canon of its one store, over the body's payloads); the
  body's triple; the pipeline's proof data and the body obligation at every point.
-/
import proofs.«417899_j21706764714760_3_alg».proof.Proof.Gen.Kernel.Launch
import proofs.«417899_j21706764714760_3_alg».proof.Proof.Gen.Kernel.Skeleton
import proofs.«417899_j21706764714760_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the index map selects. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved since the point that did fetch it. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The body's accesses: every load and store takes its buffer whole -/

abbrev rQ : Rect S1x512x128 := Rect.unit (s := S1x512x128) ![0, 0, 0] S1x512x128.size inb_S1x512x128_S1x512x128_0_0_0
abbrev rKV : Rect S1x2048x128 := Rect.unit (s := S1x2048x128) ![0, 0, 0] S1x2048x128.size inb_S1x2048x128_S1x2048x128_0_0_0

/-! ## What the body leaves in the output window's buffer -/

/-- The two heads' normalised weighted sums side by side, as the body's payloads compute them from the three loads. -/
def aout3 (x0 : Vec F S1x512x128 .bf16) (x1 : Vec F S1x2048x128 .bf16) (x2 : Vec F S1x2048x128 .bf16) : Vec F S1x512x128 .f32 :=
  View.canon [⟨rQ, k1_pay1 (k1_pay5 (View.ld x0 rQ) (View.ld x1 rKV) (View.ld x2 rKV)) (k1_pay7 (View.ld x0 rQ) (View.ld x1 rKV))
    (k1_pay8 (View.ld x0 rQ) (View.ld x1 rKV) (View.ld x2 rKV))⟩]

/-- One store of the whole buffer covers it. -/
theorem acover (p0 : Vec F S1x512x128 .f32) (y : S1x512x128.Idx) :
    ∃ pc ∈ ([⟨rQ, p0⟩] : List (View.Piece (Elt F) S1x512x128 .f32)), y ∈ pc.1.set :=
  View.cover_of_tiled [⟨rQ, p0⟩] S1x512x128.size (by rfl) y

/-! ## The body's triple -/

set_option maxHeartbeats 1000000 in
/-- The attention body on whole staging memrefs — the three inputs' at read contents, the output's at anything — runs
    to a continuation holding the inputs' as they were and the output's at `aout3` of the inputs'. -/
theorem sound_attn (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x512x128 .f32) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (aout3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (acover _)

/-! ## The pipeline's proof data -/

/-- The attention pipeline's proof data on core `c`: the arrays as the region finds them; after the body at point `t`
    each input's buffer at its block and the output's at `aout3` of the input blocks; the scoped rest and the generator
    register untouched; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => aout3 (ablk V c 0 t) (ablk V c 1 t) (ablk V c 2 t)
  Φ _ := Pipeline.ΦA spec1 c
  q _ := fullShare
  owed _ := 0

theorem aA_eq (c : Dev nD) (w : Fin cfg1.W) : (adat V c).A w = V c (Pipeline.arrRef spec1 w) := by
  dsimp only [adat]

theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = aout3 (ablk V c 0 t) (ablk V c 1 t) (ablk V c 2 t) := by dsimp only [adat]

theorem abefore0 (c : Dev nD) (t : Fin cfg1.N) (d) : (adat V c).before 0 t d = ablk V c 0 t :=
  abefore0_of V (adat V c) (aA_eq V c 0) (aafter0 V c) t d
theorem abefore1 (c : Dev nD) (t : Fin cfg1.N) (d) : (adat V c).before 1 t d = ablk V c 1 t :=
  abefore1_of V (adat V c) (aA_eq V c 1) (aafter1 V c) t d
theorem abefore2 (c : Dev nD) (t : Fin cfg1.N) (d) : (adat V c).before 2 t d = ablk V c 2 t :=
  abefore2_of V (adat V c) (aA_eq V c 2) (aafter2 V c) t d

/-! ## The body obligation, at a generic point -/

/-- What the body is called with at point `t`, the windows one by one, -/
def abodyPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d)))

/-- and what it returns. -/
def abodyPost (c : Dev nD) (t : Fin cfg1.N) : sProp 𝕄 :=
  iprop((adat V c).Φ t.succ ∗ (adat V c).owesAt () t.succ
    ∗ owns (c : Thread nD τ) (st1_0 t) fullShare ((adat V c).after 0 t)
    ∗ owns (c : Thread nD τ) (st1_1 t) fullShare ((adat V c).after 1 t)
    ∗ owns (c : Thread nD τ) (st1_2 t) fullShare ((adat V c).after 2 t)
    ∗ owns (c : Thread nD τ) (st1_3 t) fullShare ((adat V c).after 3 t))

/-- The body at any point: the inputs' memrefs hold their blocks, so the body's triple applies; the invariant and the
    core's dues pass through unread. -/
theorem sound_abody (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore0, abefore1, abefore2]
  rw [show (adat V c).Φ t.succ = (adat V c).Φ t.castSucc from rfl,
    show (adat V c).owesAt () t.succ = (adat V c).owesAt () t.castSucc from rfl,
    aafter0, aafter1, aafter2, aafter3]
  iintro ⟨HΦ, Ho, ⟨%d0, H0⟩, ⟨%d1, H1⟩, ⟨%d2, H2⟩, ⟨%d3, H3⟩⟩
  iapply (sound_attn c Set.univ _ _ _ _ _ _ _ _ _ (ablk V c 0 t) (ablk V c 1 t) (ablk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem abody_obligation (c : Dev nD) : BodyObligation (adat (F := F) V c) (defs₀ (F := F)) Variants.none () Set.univ := fun t => by
  rw [bigSep_W1, bigSep_W1]
  exact sound_abody V c t

end Cert.Kernel.Hand

end
-- ==== Proof.K.Run.lean ====
/-
  The whole program as a run: host operations (the weights and the biases concatenated, the activations flattened),
  the projection region, host operations (the three projections reshaped to [2, 2048, 1024]), the attention region.

  The unscoped buffers' contents are followed through the four stretches: W0 at launch, W1 after the first host
  stretch, W2 after the projection region (its three output arrays at what its write-backs leave, every other buffer as
  entered), W3 after the second host stretch, W4 after the attention region. No stretch writes an argument array, so
  each argument reads back through the four steps to its launch contents; the result array holds what the attention
  region's write-backs leave. Each region is a segment of the launch theorem for programs of several regions, over the
  thread state "every unscoped buffer at the boundary's contents, the generator register at some state, nothing owed".
-/
import proofs.«417899_j21706764714760_3_alg».proof.Proof.K.ProjBody
import proofs.«417899_j21706764714760_3_alg».proof.Proof.K.AttnBody
import proofs.«417899_j21706764714760_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (pdat (V1 m ρ) c).arrAt w cfg0.N
theorem W2_arr (c : Dev nD) (w : Fin cfg0.W) :
    W2 m ρ c (Proc.devRef .tc (Pipeline.arrRef spec0 w)) = (pdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (pdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its arrays at what the pipeline leaves, every other buffer as entered. -/
def W4 (c : Dev nD) : Valuation τ sig (Elt F) :=
  Pipeline.withArrays spec1 c (W3 m ρ c) fun w => (adat (V3 m ρ) c).arrAt w cfg1.N
theorem W4_arr (c : Dev nD) (w : Fin cfg1.W) :
    W4 m ρ c (Proc.devRef .tc (Pipeline.arrRef spec1 w)) = (adat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (adat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the result is what the attention region's write-backs leave -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result array after the run: the attention pipeline's output array after its last point. -/
theorem W4_main_v9 (c : Dev nD) : W4 m ρ c (Proc.devRef .tc main_v9) = (adat (V3 m ρ) c).arrAt 3 cfg1.N :=
  W4_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => pdat (V1 m ρ) c
  | ⟨1, _⟩ => fun c => adat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (pbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (abody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the attention region's write-backs leave, and the seven arguments as launched. -/
theorem run_main : θ_run defs (onTc (τ := τ) (main (F := F))) ⟨m, fun _ => 0, ρ⟩ (fun r => ∀ c : Dev nD,
      r.2.mem ((c.tc : Thread nD τ).loc main_v9) = (adat (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v9 (by decide))).trans (W4_main_v9 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Kernel.Hand

end
-- ==== Proof.KI.ProjBody.lean ====
/-
  The projection region (the first pallas_call): one grid axis of 8 points; at point t the body reads rows
  [512 t, 512 t + 512) of the flattened activations, the whole concatenated weight matrix and the whole bias row,
  forms  y = x · W + bias  (a 512 × 3072 block) and stores its three column thirds into the three output windows.

  Stated here, at any float instance and for any contents V the region is entered with: each window's block at a point;
  what each output's staging buffer holds after the body (the canon of its one store, over the body's payloads); the
  body's triple; the pipeline's proof data and the body obligation at every point.
-/
import proofs.«417899_j21706764714760_3_alg».proof.Proof.Gen.KernelIdeal.Launch
import proofs.«417899_j21706764714760_3_alg».proof.Proof.Gen.KernelIdeal.Skeleton
import proofs.«417899_j21706764714760_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the index map selects. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved since the point that did fetch it. -/
theorem pbefore0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-! ## The body's accesses: every load and store takes its buffer whole -/

abbrev rAct : Rect S512x1024 := Rect.unit (s := S512x1024) ![0, 0] S512x1024.size inb_S512x1024_S512x1024_0_0
abbrev rWgt : Rect S1024x3072 := Rect.unit (s := S1024x3072) ![0, 0] S1024x3072.size inb_S1024x3072_S1024x3072_0_0
abbrev rBias : Rect S1x3072 := Rect.unit (s := S1x3072) ![0, 0] S1x3072.size inb_S1x3072_S1x3072_0_0

/-! ## What the body leaves in each output window's buffer -/

/-- The first column third of  x · W + bias  (the query projection's block). -/
def pout3 (x0 : Vec F S512x1024 .f32) (x1 : Vec F S1024x3072 .bf16) (x2 : Vec F S1x3072 .f32) : Vec F S512x1024 .bf16 :=
  View.canon [⟨rAct, k0_pay2 (View.ld x0 rAct) (View.ld x1 rWgt) (View.ld x2 rBias)⟩]
/-- The second column third (the key projection's block). -/
def pout4 (x0 : Vec F S512x1024 .f32) (x1 : Vec F S1024x3072 .bf16) (x2 : Vec F S1x3072 .f32) : Vec F S512x1024 .bf16 :=
  View.canon [⟨rAct, k0_pay3 (View.ld x0 rAct) (View.ld x1 rWgt) (View.ld x2 rBias)⟩]
/-- The last column third (the value projection's block). -/
def pout5 (x0 : Vec F S512x1024 .f32) (x1 : Vec F S1024x3072 .bf16) (x2 : Vec F S1x3072 .f32) : Vec F S512x1024 .bf16 :=
  View.canon [⟨rAct, k0_pay4 (View.ld x0 rAct) (View.ld x1 rWgt) (View.ld x2 rBias)⟩]

/-- One store of the whole buffer covers it. -/
theorem pcover (p0 : Vec F S512x1024 .bf16) (y : S512x1024.Idx) :
    ∃ pc ∈ ([⟨rAct, p0⟩] : List (View.Piece (Elt F) S512x1024 .bf16)), y ∈ pc.1.set :=
  View.cover_of_tiled [⟨rAct, p0⟩] S512x1024.size (by rfl) y

/-! ## The body's triple -/

set_option maxHeartbeats 1000000 in
/-- The projection body on whole staging memrefs — the three inputs' at read contents, the three outputs' at anything —
    runs to a continuation holding the inputs' as they were and each output's at its column third. -/
theorem sound_proj (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (pout3 x0 x1 x2) ∗ owns (c : Thread nD τ) arg5 fullShare (pout4 x0 x1 x2)
            ∗ owns (c : Thread nD τ) arg6 fullShare (pout5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (pcover _)
  isplitl [H4]
  · iexists _; isplitr
    swap; · iexact H4
    ipureintro
    exact View.read_writes_eq_canon _ _ _ (pcover _)
  iexists _; isplitr
  swap; · iexact H5
  ipureintro
  exact View.read_writes_eq_canon _ _ _ (pcover _)

/-! ## The pipeline's proof data -/

/-- The projection pipeline's proof data on core `c`: the arrays as the region finds them; after the body at point `t`
    each input's buffer at its block and each output's at its column third of the input blocks; the scoped rest and
    the generator register untouched; nothing owed; full shares. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => pout3 (pblk V c 0 t) (pblk V c 1 t) (pblk V c 2 t)
    | ⟨4, _⟩ => pout4 (pblk V c 0 t) (pblk V c 1 t) (pblk V c 2 t)
    | ⟨5, _⟩ => pout5 (pblk V c 0 t) (pblk V c 1 t) (pblk V c 2 t)
  Φ _ := Pipeline.ΦA spec0 c
  q _ := fullShare
  owed _ := 0

theorem pA_eq (c : Dev nD) (w : Fin cfg0.W) : (pdat V c).A w = V c (Pipeline.arrRef spec0 w) := by
  dsimp only [pdat]

theorem pafter0 (c : Dev nD) (t : Fin cfg0.N) : (pdat V c).after 0 t = pblk V c 0 t := by dsimp only [pdat]
theorem pafter1 (c : Dev nD) (t : Fin cfg0.N) : (pdat V c).after 1 t = pblk V c 1 t := by dsimp only [pdat]
theorem pafter2 (c : Dev nD) (t : Fin cfg0.N) : (pdat V c).after 2 t = pblk V c 2 t := by dsimp only [pdat]
theorem pafter3 (c : Dev nD) (t : Fin cfg0.N) : (pdat V c).after 3 t = pout3 (pblk V c 0 t) (pblk V c 1 t) (pblk V c 2 t) := by dsimp only [pdat]
theorem pafter4 (c : Dev nD) (t : Fin cfg0.N) : (pdat V c).after 4 t = pout4 (pblk V c 0 t) (pblk V c 1 t) (pblk V c 2 t) := by dsimp only [pdat]
theorem pafter5 (c : Dev nD) (t : Fin cfg0.N) : (pdat V c).after 5 t = pout5 (pblk V c 0 t) (pblk V c 1 t) (pblk V c 2 t) := by dsimp only [pdat]

theorem pbefore0 (c : Dev nD) (t : Fin cfg0.N) (d) : (pdat V c).before 0 t d = pblk V c 0 t :=
  pbefore0_of V (pdat V c) (pA_eq V c 0) (pafter0 V c) t d
theorem pbefore1 (c : Dev nD) (t : Fin cfg0.N) (d) : (pdat V c).before 1 t d = pblk V c 1 t :=
  pbefore1_of V (pdat V c) (pA_eq V c 1) (pafter1 V c) t d
theorem pbefore2 (c : Dev nD) (t : Fin cfg0.N) (d) : (pdat V c).before 2 t d = pblk V c 2 t :=
  pbefore2_of V (pdat V c) (pA_eq V c 2) (pafter2 V c) t d

/-! ## The body obligation, at a generic point -/

/-- What the body is called with at point `t`, the windows one by one, -/
def pbodyPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d))
    ∗ (∃ d, owns (c : Thread nD τ) (st0_5 t) fullShare ((pdat V c).before 5 t d)))

/-- and what it returns. -/
def pbodyPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t)
    ∗ owns (c : Thread nD τ) (st0_5 t) fullShare ((pdat V c).after 5 t))

/-- The body at any point: the inputs' memrefs hold their blocks, so the body's triple applies; the invariant and the
    core's dues pass through unread. -/
theorem sound_pbody (c : Dev nD) (t : Fin cfg0.N) :
    pbodyPre V c t ⊢ wp frame (wpE (defs₀ (F := F)) Variants.none c none) Set.univ (bodyAt0 t) (fun _ => pbodyPost V c t) := by
  unfold pbodyPre pbodyPost bodyAt0
  simp only [pbefore0, pbefore1, pbefore2]
  rw [show (pdat V c).Φ t.succ = (pdat V c).Φ t.castSucc from rfl,
    show (pdat V c).owesAt () t.succ = (pdat V c).owesAt () t.castSucc from rfl,
    pafter0, pafter1, pafter2, pafter3, pafter4, pafter5]
  iintro ⟨HΦ, Ho, ⟨%d0, H0⟩, ⟨%d1, H1⟩, ⟨%d2, H2⟩, ⟨%d3, H3⟩, ⟨%d4, H4⟩, ⟨%d5, H5⟩⟩
  iapply (sound_proj c Set.univ _ _ _ _ _ _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem pbody_obligation (c : Dev nD) : BodyObligation (pdat (F := F) V c) (defs₀ (F := F)) Variants.none () Set.univ := fun t => by
  rw [bigSep_W0, bigSep_W0]
  exact sound_pbody V c t

end Cert.KernelIdeal.Hand

end
-- ==== Proof.KI.AttnBody.lean ====
/-
  The attention region (the second pallas_call): a grid of 2 × 8 × 4 points (batch, pair of heads, block of 512
  query rows). At a point the body reads a 512 × 128 block of the query projection and the whole 2048 × 128 column
  pair of the key and of the value projection; for each of the pair's two heads (a 64-column half) it forms the scaled
  scores, subtracts each row's maximum, exponentiates, sums, multiplies the weights into the values and divides by
  the sums; the two 512 × 64 results side by side are the 512 × 128 output block.

  Stated here, at any float instance and for any contents V the region is entered with: each window's block at a point;
  what the output's staging buffer holds after the body (the canon of its one store, over the body's payloads); the
  body's triple; the pipeline's proof data and the body obligation at every point.
-/
import proofs.«417899_j21706764714760_3_alg».proof.Proof.Gen.KernelIdeal.Launch
import proofs.«417899_j21706764714760_3_alg».proof.Proof.Gen.KernelIdeal.Skeleton
import proofs.«417899_j21706764714760_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the index map selects. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved since the point that did fetch it. -/
theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)
theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)
theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The body's accesses: every load and store takes its buffer whole -/

abbrev rQ : Rect S1x512x128 := Rect.unit (s := S1x512x128) ![0, 0, 0] S1x512x128.size inb_S1x512x128_S1x512x128_0_0_0
abbrev rKV : Rect S1x2048x128 := Rect.unit (s := S1x2048x128) ![0, 0, 0] S1x2048x128.size inb_S1x2048x128_S1x2048x128_0_0_0

/-! ## What the body leaves in the output window's buffer -/

/-- The two heads' normalised weighted sums side by side, as the body's payloads compute them from the three loads. -/
def aout3 (x0 : Vec F S1x512x128 .bf16) (x1 : Vec F S1x2048x128 .bf16) (x2 : Vec F S1x2048x128 .bf16) : Vec F S1x512x128 .f32 :=
  View.canon [⟨rQ, k1_pay1 (k1_pay5 (View.ld x0 rQ) (View.ld x1 rKV) (View.ld x2 rKV)) (k1_pay7 (View.ld x0 rQ) (View.ld x1 rKV))
    (k1_pay8 (View.ld x0 rQ) (View.ld x1 rKV) (View.ld x2 rKV))⟩]

/-- One store of the whole buffer covers it. -/
theorem acover (p0 : Vec F S1x512x128 .f32) (y : S1x512x128.Idx) :
    ∃ pc ∈ ([⟨rQ, p0⟩] : List (View.Piece (Elt F) S1x512x128 .f32)), y ∈ pc.1.set :=
  View.cover_of_tiled [⟨rQ, p0⟩] S1x512x128.size (by rfl) y

/-! ## The body's triple -/

set_option maxHeartbeats 1000000 in
/-- The attention body on whole staging memrefs — the three inputs' at read contents, the output's at anything — runs
    to a continuation holding the inputs' as they were and the output's at `aout3` of the inputs'. -/
theorem sound_attn (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x512x128 .f32) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (aout3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (acover _)

/-! ## The pipeline's proof data -/

/-- The attention pipeline's proof data on core `c`: the arrays as the region finds them; after the body at point `t`
    each input's buffer at its block and the output's at `aout3` of the input blocks; the scoped rest and the generator
    register untouched; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => aout3 (ablk V c 0 t) (ablk V c 1 t) (ablk V c 2 t)
  Φ _ := Pipeline.ΦA spec1 c
  q _ := fullShare
  owed _ := 0

theorem aA_eq (c : Dev nD) (w : Fin cfg1.W) : (adat V c).A w = V c (Pipeline.arrRef spec1 w) := by
  dsimp only [adat]

theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = aout3 (ablk V c 0 t) (ablk V c 1 t) (ablk V c 2 t) := by dsimp only [adat]

theorem abefore0 (c : Dev nD) (t : Fin cfg1.N) (d) : (adat V c).before 0 t d = ablk V c 0 t :=
  abefore0_of V (adat V c) (aA_eq V c 0) (aafter0 V c) t d
theorem abefore1 (c : Dev nD) (t : Fin cfg1.N) (d) : (adat V c).before 1 t d = ablk V c 1 t :=
  abefore1_of V (adat V c) (aA_eq V c 1) (aafter1 V c) t d
theorem abefore2 (c : Dev nD) (t : Fin cfg1.N) (d) : (adat V c).before 2 t d = ablk V c 2 t :=
  abefore2_of V (adat V c) (aA_eq V c 2) (aafter2 V c) t d

/-! ## The body obligation, at a generic point -/

/-- What the body is called with at point `t`, the windows one by one, -/
def abodyPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d)))

/-- and what it returns. -/
def abodyPost (c : Dev nD) (t : Fin cfg1.N) : sProp 𝕄 :=
  iprop((adat V c).Φ t.succ ∗ (adat V c).owesAt () t.succ
    ∗ owns (c : Thread nD τ) (st1_0 t) fullShare ((adat V c).after 0 t)
    ∗ owns (c : Thread nD τ) (st1_1 t) fullShare ((adat V c).after 1 t)
    ∗ owns (c : Thread nD τ) (st1_2 t) fullShare ((adat V c).after 2 t)
    ∗ owns (c : Thread nD τ) (st1_3 t) fullShare ((adat V c).after 3 t))

/-- The body at any point: the inputs' memrefs hold their blocks, so the body's triple applies; the invariant and the
    core's dues pass through unread. -/
theorem sound_abody (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore0, abefore1, abefore2]
  rw [show (adat V c).Φ t.succ = (adat V c).Φ t.castSucc from rfl,
    show (adat V c).owesAt () t.succ = (adat V c).owesAt () t.castSucc from rfl,
    aafter0, aafter1, aafter2, aafter3]
  iintro ⟨HΦ, Ho, ⟨%d0, H0⟩, ⟨%d1, H1⟩, ⟨%d2, H2⟩, ⟨%d3, H3⟩⟩
  iapply (sound_attn c Set.univ _ _ _ _ _ _ _ _ _ (ablk V c 0 t) (ablk V c 1 t) (ablk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem abody_obligation (c : Dev nD) : BodyObligation (adat (F := F) V c) (defs₀ (F := F)) Variants.none () Set.univ := fun t => by
  rw [bigSep_W1, bigSep_W1]
  exact sound_abody V c t

end Cert.KernelIdeal.Hand

end
-- ==== Proof.KI.Run.lean ====
/-
  The whole program as a run: host operations (the weights and the biases concatenated, the activations flattened),
  the projection region, host operations (the three projections reshaped to [2, 2048, 1024]), the attention region.

  The unscoped buffers' contents are followed through the four stretches: W0 at launch, W1 after the first host
  stretch, W2 after the projection region (its three output arrays at what its write-backs leave, every other buffer as
  entered), W3 after the second host stretch, W4 after the attention region. No stretch writes an argument array, so
  each argument reads back through the four steps to its launch contents; the result array holds what the attention
  region's write-backs leave. Each region is a segment of the launch theorem for programs of several regions, over the
  thread state "every unscoped buffer at the boundary's contents, the generator register at some state, nothing owed".
-/
import proofs.«417899_j21706764714760_3_alg».proof.Proof.KI.ProjBody
import proofs.«417899_j21706764714760_3_alg».proof.Proof.KI.AttnBody
import proofs.«417899_j21706764714760_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (pdat (V1 m ρ) c).arrAt w cfg0.N
theorem W2_arr (c : Dev nD) (w : Fin cfg0.W) :
    W2 m ρ c (Proc.devRef .tc (Pipeline.arrRef spec0 w)) = (pdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (pdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its arrays at what the pipeline leaves, every other buffer as entered. -/
def W4 (c : Dev nD) : Valuation τ sig (Elt F) :=
  Pipeline.withArrays spec1 c (W3 m ρ c) fun w => (adat (V3 m ρ) c).arrAt w cfg1.N
theorem W4_arr (c : Dev nD) (w : Fin cfg1.W) :
    W4 m ρ c (Proc.devRef .tc (Pipeline.arrRef spec1 w)) = (adat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (adat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the result is what the attention region's write-backs leave -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result array after the run: the attention pipeline's output array after its last point. -/
theorem W4_main_v9 (c : Dev nD) : W4 m ρ c (Proc.devRef .tc main_v9) = (adat (V3 m ρ) c).arrAt 3 cfg1.N :=
  W4_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => pdat (V1 m ρ) c
  | ⟨1, _⟩ => fun c => adat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (pbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (abody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the attention region's write-backs leave, and the seven arguments as launched. -/
theorem run_main : θ_run defs (onTc (τ := τ) (main (F := F))) ⟨m, fun _ => 0, ρ⟩ (fun r => ∀ c : Dev nD,
      r.2.mem ((c.tc : Thread nD τ).loc main_v9) = (adat (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v9 (by decide))).trans (W4_main_v9 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.ProjValue.lean ====
/-
  What the projection region leaves in its three output arrays, at the extended reals, for any contents V it is
  entered with: entry (r, c) of the k-th output is the product of row r of the flattened activations with column
  1024 k + c of the concatenated weights, plus entry 1024 k + c of the concatenated bias row.
-/
import proofs.«417899_j21706764714760_3_alg».proof.Proof.KI.ProjBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the region reads, at their literal types. -/
abbrev xflat (c : Dev nD) : S4096x1024.Idx → EReal := V c main_v4
abbrev wcat (c : Dev nD) : S1024x3072.Idx → EReal := V c main_v1
abbrev bcat (c : Dev nD) : S1x3072.Idx → EReal := V c main_v3

/-- Column `c` of the `k`-th third of the 3072 concatenated columns. -/
def thirdCol (k : Fin 3) (c : Fin 1024) : Fin 3072 := ⟨k.val * 1024 + c.val, by omega⟩

/-! ## The body's product at an index -/

/-- The left operand of the body's product is read at the result's row and the contraction index, -/
private theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
private theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- and the right operand at the contraction index and the result's column. -/
private theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
private theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The body's product with a zero accumulator, at row p and column j: the 1024-term sum of row p of the left
    operand against column j of the right. -/
private theorem matmul_proj_apply (a : FVec Ideal S512x1024 .bf16) (b : FVec Ideal S1024x3072 .bf16) (p : Fin 512) (j : Fin 3072) :
    matmul dot_S512x1024_S1024x3072_S512x3072_1_0_0_1_n_n none a b (constant (F := Ideal) S512x3072 .f32 0x00000000#32) (ix2 p j)
      = ∑ i : Fin 1024, a (ix2 p i) * b (ix2 i j) := by
  refine (Ideal.matmul_constant_zero_apply dot_S512x1024_S1024x3072_S512x3072_1_0_0_1_n_n none a b (ix2 p j)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p j) ((ValueIdx.contrEquiv1 dot_S512x1024_S1024x3072_S512x3072_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x3072_S512x3072_1_0_0_1_n_n.rhsIdx (ix2 p j) ((ValueIdx.contrEquiv1 dot_S512x1024_S1024x3072_S512x3072_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

/-- The body's 512 × 3072 block  x · W + bias  at row p and column j. -/
private theorem pay1_apply (x0 : Vec Ideal S512x1024 .f32) (x1 : Vec Ideal S1024x3072 .bf16) (x2 : Vec Ideal S1x3072 .f32)
    (p : Fin 512) (j : Fin 3072) :
    k0_pay1 (F := Ideal) x0 x1 x2 (ix2 p j) = (∑ i : Fin 1024, x0 (ix2 p i) * x1 (ix2 i j)) + x2 (ix2 0 j) := by
  unfold k0_pay1
  simp only [shapeCast_self]
  refine (addf_apply _ _ _).trans ?_
  congr 1
  · exact matmul_proj_apply _ _ p j
  · exact broadcastTo_apply x2 _ (ix2 p j) (ix2 0 j) (fun a => by
      match a with
      | ⟨0, _⟩ => rfl
      | ⟨1, _⟩ => rfl)

/-- Column third k of that block is its columns 1024 k + q. -/
private theorem third_apply (k : Fin 3) (off : Fin 2 → Nat) (hoff : off = ![0, k.val * 1024]) (h : S512x3072.Slices off S512x1024)
    (y : FVec Ideal S512x3072 .f32) (p : Fin 512) (q : Fin 1024) :
    (truncf .bf16 (extractStridedSlice S512x1024 off y h) bitsLt_bf16_f32 : FVec Ideal S512x1024 .bf16) (ix2 p q)
      = y (ix2 p (thirdCol k q)) := by
  subst hoff
  show extractStridedSlice S512x1024 ![0, k.val * 1024] y h (ix2 p q) = _
  refine extractStridedSlice_apply _ y h (ix2 p q) (ix2 p (thirdCol k q)) (fun a => ?_)
  match a with
  | ⟨0, _⟩ => show p.val = 0 + p.val; omega
  | ⟨1, _⟩ => show k.val * 1024 + q.val = k.val * 1024 + q.val; rfl

/-- The three stored blocks at row p and column q: row p of the activations' block against column 1024 k + q of the
    weights, plus entry 1024 k + q of the bias row. -/
private theorem pay2_apply (x0 : Vec Ideal S512x1024 .f32) (x1 : Vec Ideal S1024x3072 .bf16) (x2 : Vec Ideal S1x3072 .f32)
    (p : Fin 512) (q : Fin 1024) :
    k0_pay2 (F := Ideal) x0 x1 x2 (ix2 p q)
      = (∑ i : Fin 1024, x0 (ix2 p i) * x1 (ix2 i (thirdCol 0 q))) + x2 (ix2 0 (thirdCol 0 q)) := by
  unfold k0_pay2
  exact (third_apply 0 _ rfl _ _ p q).trans (pay1_apply x0 x1 x2 p (thirdCol 0 q))
private theorem pay3_apply (x0 : Vec Ideal S512x1024 .f32) (x1 : Vec Ideal S1024x3072 .bf16) (x2 : Vec Ideal S1x3072 .f32)
    (p : Fin 512) (q : Fin 1024) :
    k0_pay3 (F := Ideal) x0 x1 x2 (ix2 p q)
      = (∑ i : Fin 1024, x0 (ix2 p i) * x1 (ix2 i (thirdCol 1 q))) + x2 (ix2 0 (thirdCol 1 q)) := by
  unfold k0_pay3
  exact (third_apply 1 _ rfl _ _ p q).trans (pay1_apply x0 x1 x2 p (thirdCol 1 q))
private theorem pay4_apply (x0 : Vec Ideal S512x1024 .f32) (x1 : Vec Ideal S1024x3072 .bf16) (x2 : Vec Ideal S1x3072 .f32)
    (p : Fin 512) (q : Fin 1024) :
    k0_pay4 (F := Ideal) x0 x1 x2 (ix2 p q)
      = (∑ i : Fin 1024, x0 (ix2 p i) * x1 (ix2 i (thirdCol 2 q))) + x2 (ix2 0 (thirdCol 2 q)) := by
  unfold k0_pay4
  exact (third_apply 2 _ rfl _ _ p q).trans (pay1_apply x0 x1 x2 p (thirdCol 2 q))

/-! ## The blocks as rows of the arrays -/

private theorem hz : (![0, 0] : Fin 2 → Nat) = fun _ => 0 := funext fun a => by fin_cases a <;> rfl

/-- The index maps over the grid: at point t the activations' block and the three outputs' blocks are row block t; the
    weights and the bias row are taken whole at every point. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of row block t: row 512 t + p of the array. -/
private def rowOf (t : Fin cfg0.N) (p : Fin 512) : Fin 4096 :=
  ⟨t.val * 512 + p.val, by have h : t.val < 8 := lt_of_lt_of_eq t.isLt N_0; have := p.isLt; omega⟩

/-- The three input blocks at point t, at their literal types. -/
private abbrev xblk (c : Dev nD) (t : Fin cfg0.N) : Vec Ideal S512x1024 .f32 := pblk (F := Ideal) V c 0 t
private abbrev wblk (c : Dev nD) (t : Fin cfg0.N) : Vec Ideal S1024x3072 .bf16 := pblk (F := Ideal) V c 1 t
private abbrev bblk (c : Dev nD) (t : Fin cfg0.N) : Vec Ideal S1x3072 .f32 := pblk (F := Ideal) V c 2 t

/-- The activations' block at point t is rows 512 t … 512 t + 511 of the flattened activations. -/
private theorem pblk0_apply (c : Dev nD) (t : Fin cfg0.N) (p : Fin 512) (i : Fin 1024) :
    xblk V c t (ix2 p i) = xflat V c (ix2 (rowOf t p) i) := by
  obtain ⟨e0, e1, -⟩ := idx_facts t
  unfold xblk pblk
  rw [View.read_apply]
  show V c main_v4 _ = V c main_v4 _
  congr 1
  funext a
  apply Fin.ext
  match a with
  | ⟨0, _⟩ => show win0_0.index t 0 * 512 + 1 * p.val = t.val * 512 + p.val; rw [e0]; omega
  | ⟨1, _⟩ => show win0_0.index t 1 * 1024 + 1 * i.val = i.val; rw [e1]; omega

/-- The weights' block at every point is the whole concatenated weight matrix. -/
private theorem pblk1_apply (c : Dev nD) (t : Fin cfg0.N) (i : Fin 1024) (j : Fin 3072) :
    wblk V c t (ix2 i j) = wcat V c (ix2 i j) := by
  obtain ⟨-, -, e0, e1, -⟩ := idx_facts t
  unfold wblk pblk
  rw [View.read_apply]
  show V c main_v1 _ = V c main_v1 _
  congr 1
  funext a
  apply Fin.ext
  match a with
  | ⟨0, _⟩ => show win0_1.index t 0 * 1024 + 1 * i.val = i.val; rw [e0]; omega
  | ⟨1, _⟩ => show win0_1.index t 1 * 3072 + 1 * j.val = j.val; rw [e1]; omega

/-- The bias block at every point is the whole bias row. -/
private theorem pblk2_apply (c : Dev nD) (t : Fin cfg0.N) (j : Fin 3072) :
    bblk V c t (ix2 0 j) = bcat V c (ix2 0 j) := by
  obtain ⟨-, -, -, -, e0, e1, -⟩ := idx_facts t
  unfold bblk pblk
  rw [View.read_apply]
  show V c main_v3 _ = V c main_v3 _
  congr 1
  funext a
  apply Fin.ext
  match a with
  | ⟨0, _⟩ => show win0_2.index t 0 * 1 + 1 * 0 = 0; rw [e0]
  | ⟨1, _⟩ => show win0_2.index t 1 * 3072 + 1 * j.val = j.val; rw [e1]; omega

/-! ## What each point writes back, and the arrays after the last point -/

/-- Entry (r, cc) of the k-th projection of the arrays the region is entered with. -/
private def projAt (c : Dev nD) (k : Fin 3) (r : Fin 4096) (cc : Fin 1024) : EReal :=
  (∑ i : Fin 1024, xflat V c (ix2 r i) * wcat V c (ix2 i (thirdCol k cc))) + bcat V c (ix2 0 (thirdCol k cc))

/-- The k-th projection as an array. -/
private def projArr (c : Dev nD) (k : Fin 3) : S4096x1024.Idx → EReal := fun i => projAt V c k (i 0) (i 1)

/-- Column third k of  x · W + bias  over the blocks at point t, at row p and column q: entry (512 t + p, q) of the
    k-th projection. -/
private theorem block_third (c : Dev nD) (t : Fin cfg0.N) (k : Fin 3) (p : Fin 512) (q : Fin 1024) :
    (∑ i : Fin 1024, xblk V c t (ix2 p i) * wblk V c t (ix2 i (thirdCol k q))) + bblk V c t (ix2 0 (thirdCol k q))
      = projAt V c k (rowOf t p) q := by
  unfold projAt
  refine congrArg₂ (· + ·) (Finset.sum_congr rfl fun i _ => ?_) (pblk2_apply V c t _)
  exact congrArg₂ (· * ·) (pblk0_apply V c t p i) (pblk1_apply V c t i _)

/-- The point whose row block holds row r is r / 512. -/
private theorem point_of_row (r : Nat) (hr : r < 4096) : ∃ t : Fin cfg0.N, t.val * 512 ≤ r ∧ r < t.val * 512 + 512 :=
  ⟨⟨r / 512, by rw [show cfg0.N = 8 from N_0]; omega⟩, by show r / 512 * 512 ≤ r ∧ r < r / 512 * 512 + 512; omega⟩

/-! ### Output window 3 (the query projection) -/

/-- Row p, column q of point t's block of the array is its entry (512 t + p, q). -/
private theorem emb3 (t : Fin cfg0.N) (p : Fin 512) (q : Fin 1024) :
    ((cfg0.win 3).blk t).view.emb (ix2 p q) = (ix2 (rowOf t p) q : S4096x1024.Idx) := by
  have e := idx_facts t
  funext a
  apply Fin.ext
  match a with
  | ⟨0, _⟩ => show win0_3.index t 0 * 512 + 1 * p.val = t.val * 512 + p.val; omega
  | ⟨1, _⟩ => show win0_3.index t 1 * 1024 + 1 * q.val = q.val; omega

/-- What point t writes back is its block of the query projection. -/
private theorem flushed3_eq (c : Dev nD) (t : Fin cfg0.N) :
    (pdat (F := Ideal) V c).flushed 3 t = ((cfg0.win 3).blk t).view.read (Elt Ideal) (projArr V c 0) := by
  show (cfg0.win 3).cut (grid0.coords t) ((pdat (F := Ideal) V c).after 3 t) = _
  rw [pafter3]
  unfold pout3
  rw [View.canon_unit_zero hz]
  simp only [View.ld_unit_zero (S := S512x1024) hz, View.ld_unit_zero (S := S1024x3072) hz, View.ld_unit_zero (S := S1x3072) hz]
  funext j
  obtain ⟨p, q, rfl⟩ : ∃ (p : Fin 512) (q : Fin 1024), j = ix2 p q := ⟨j 0, j 1, eq_ix2 j⟩
  show k0_pay2 (F := Ideal) (pblk V c 0 t) (pblk V c 1 t) (pblk V c 2 t) (ix2 p q)
    = projArr V c 0 (((cfg0.win 3).blk t).view.emb (ix2 p q))
  rw [emb3]
  exact (pay2_apply _ _ _ p q).trans (block_third V c t 0 p q)

/-- An entry of the array is in point t's block iff its row is in row block t. -/
private theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl

/-- The eight row blocks cover the array. -/
private theorem cover3 (i : S4096x1024.Idx) :
    ∃ t : Fin cfg0.N, (cfg0.win 3).flush t = true ∧ i ∈ ((cfg0.win 3).blk t).view.set := by
  have h1 : (i 1).val < 1024 := (i 1).isLt
  obtain ⟨t, ht⟩ := point_of_row (i 0).val (i 0).isLt
  have e := idx_facts t
  refine ⟨t, flush0_3 t, ?_⟩
  rw [mem_blk3]
  intro a
  match a with
  | ⟨0, _⟩ => show win0_3.index t 0 * 512 ≤ (i 0).val ∧ (i 0).val < win0_3.index t 0 * 512 + 512; omega
  | ⟨1, _⟩ => show win0_3.index t 1 * 1024 ≤ (i 1).val ∧ (i 1).val < win0_3.index t 1 * 1024 + 1024; omega

/-- So the array ends holding the query projection. -/
private theorem final3 (c : Dev nD) : (pdat (F := Ideal) V c).arrAt 3 cfg0.N = projArr V c 0 :=
  (pdat (F := Ideal) V c).arrAt_eq_of_cover 3 (projArr V c 0) (fun t _ => flushed3_eq V c t) cover3

/-! ### Output window 4 (the key projection) -/

/-- Row p, column q of point t's block of the array is its entry (512 t + p, q). -/
private theorem emb4 (t : Fin cfg0.N) (p : Fin 512) (q : Fin 1024) :
    ((cfg0.win 4).blk t).view.emb (ix2 p q) = (ix2 (rowOf t p) q : S4096x1024.Idx) := by
  have e := idx_facts t
  funext a
  apply Fin.ext
  match a with
  | ⟨0, _⟩ => show win0_4.index t 0 * 512 + 1 * p.val = t.val * 512 + p.val; omega
  | ⟨1, _⟩ => show win0_4.index t 1 * 1024 + 1 * q.val = q.val; omega

/-- What point t writes back is its block of the key projection. -/
private theorem flushed4_eq (c : Dev nD) (t : Fin cfg0.N) :
    (pdat (F := Ideal) V c).flushed 4 t = ((cfg0.win 4).blk t).view.read (Elt Ideal) (projArr V c 1) := by
  show (cfg0.win 4).cut (grid0.coords t) ((pdat (F := Ideal) V c).after 4 t) = _
  rw [pafter4]
  unfold pout4
  rw [View.canon_unit_zero hz]
  simp only [View.ld_unit_zero (S := S512x1024) hz, View.ld_unit_zero (S := S1024x3072) hz, View.ld_unit_zero (S := S1x3072) hz]
  funext j
  obtain ⟨p, q, rfl⟩ : ∃ (p : Fin 512) (q : Fin 1024), j = ix2 p q := ⟨j 0, j 1, eq_ix2 j⟩
  show k0_pay3 (F := Ideal) (pblk V c 0 t) (pblk V c 1 t) (pblk V c 2 t) (ix2 p q)
    = projArr V c 1 (((cfg0.win 4).blk t).view.emb (ix2 p q))
  rw [emb4]
  exact (pay3_apply _ _ _ p q).trans (block_third V c t 1 p q)

/-- An entry of the array is in point t's block iff its row is in row block t. -/
private theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- The eight row blocks cover the array. -/
private theorem cover4 (i : S4096x1024.Idx) :
    ∃ t : Fin cfg0.N, (cfg0.win 4).flush t = true ∧ i ∈ ((cfg0.win 4).blk t).view.set := by
  have h1 : (i 1).val < 1024 := (i 1).isLt
  obtain ⟨t, ht⟩ := point_of_row (i 0).val (i 0).isLt
  have e := idx_facts t
  refine ⟨t, flush0_4 t, ?_⟩
  rw [mem_blk4]
  intro a
  match a with
  | ⟨0, _⟩ => show win0_4.index t 0 * 512 ≤ (i 0).val ∧ (i 0).val < win0_4.index t 0 * 512 + 512; omega
  | ⟨1, _⟩ => show win0_4.index t 1 * 1024 ≤ (i 1).val ∧ (i 1).val < win0_4.index t 1 * 1024 + 1024; omega

/-- So the array ends holding the key projection. -/
private theorem final4 (c : Dev nD) : (pdat (F := Ideal) V c).arrAt 4 cfg0.N = projArr V c 1 :=
  (pdat (F := Ideal) V c).arrAt_eq_of_cover 4 (projArr V c 1) (fun t _ => flushed4_eq V c t) cover4

/-! ### Output window 5 (the value projection) -/

/-- Row p, column q of point t's block of the array is its entry (512 t + p, q). -/
private theorem emb5 (t : Fin cfg0.N) (p : Fin 512) (q : Fin 1024) :
    ((cfg0.win 5).blk t).view.emb (ix2 p q) = (ix2 (rowOf t p) q : S4096x1024.Idx) := by
  have e := idx_facts t
  funext a
  apply Fin.ext
  match a with
  | ⟨0, _⟩ => show win0_5.index t 0 * 512 + 1 * p.val = t.val * 512 + p.val; omega
  | ⟨1, _⟩ => show win0_5.index t 1 * 1024 + 1 * q.val = q.val; omega

/-- What point t writes back is its block of the value projection. -/
private theorem flushed5_eq (c : Dev nD) (t : Fin cfg0.N) :
    (pdat (F := Ideal) V c).flushed 5 t = ((cfg0.win 5).blk t).view.read (Elt Ideal) (projArr V c 2) := by
  show (cfg0.win 5).cut (grid0.coords t) ((pdat (F := Ideal) V c).after 5 t) = _
  rw [pafter5]
  unfold pout5
  rw [View.canon_unit_zero hz]
  simp only [View.ld_unit_zero (S := S512x1024) hz, View.ld_unit_zero (S := S1024x3072) hz, View.ld_unit_zero (S := S1x3072) hz]
  funext j
  obtain ⟨p, q, rfl⟩ : ∃ (p : Fin 512) (q : Fin 1024), j = ix2 p q := ⟨j 0, j 1, eq_ix2 j⟩
  show k0_pay4 (F := Ideal) (pblk V c 0 t) (pblk V c 1 t) (pblk V c 2 t) (ix2 p q)
    = projArr V c 2 (((cfg0.win 5).blk t).view.emb (ix2 p q))
  rw [emb5]
  exact (pay4_apply _ _ _ p q).trans (block_third V c t 2 p q)

/-- An entry of the array is in point t's block iff its row is in row block t. -/
private theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_2).slice (win0_5.rect t)).set ↔ _
  rw [View.set_slice_whole, Rect.mem_set_unit]
  exact Iff.rfl

/-- The eight row blocks cover the array. -/
private theorem cover5 (i : S4096x1024.Idx) :
    ∃ t : Fin cfg0.N, (cfg0.win 5).flush t = true ∧ i ∈ ((cfg0.win 5).blk t).view.set := by
  have h1 : (i 1).val < 1024 := (i 1).isLt
  obtain ⟨t, ht⟩ := point_of_row (i 0).val (i 0).isLt
  have e := idx_facts t
  refine ⟨t, flush0_5 t, ?_⟩
  rw [mem_blk5]
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

/-- So the array ends holding the value projection. -/
private theorem final5 (c : Dev nD) : (pdat (F := Ideal) V c).arrAt 5 cfg0.N = projArr V c 2 :=
  (pdat (F := Ideal) V c).arrAt_eq_of_cover 5 (projArr V c 2) (fun t _ => flushed5_eq V c t) cover5

/-- The first output array (the query projection, flattened). -/
theorem proj_arr3 (c : Dev nD) (r : Fin 4096) (cc : Fin 1024) :
    (pdat (F := Ideal) V c).arrAt 3 cfg0.N (ix2 r cc)
      = (∑ i : Fin 1024, xflat V c (ix2 r i) * wcat V c (ix2 i (thirdCol 0 cc))) + bcat V c (ix2 0 (thirdCol 0 cc)) :=
  congrFun (final3 V c) (ix2 r cc)

/-- The second output array (the key projection, flattened). -/
theorem proj_arr4 (c : Dev nD) (r : Fin 4096) (cc : Fin 1024) :
    (pdat (F := Ideal) V c).arrAt 4 cfg0.N (ix2 r cc)
      = (∑ i : Fin 1024, xflat V c (ix2 r i) * wcat V c (ix2 i (thirdCol 1 cc))) + bcat V c (ix2 0 (thirdCol 1 cc)) :=
  congrFun (final4 V c) (ix2 r cc)

/-- The third output array (the value projection, flattened). -/
theorem proj_arr5 (c : Dev nD) (r : Fin 4096) (cc : Fin 1024) :
    (pdat (F := Ideal) V c).arrAt 5 cfg0.N (ix2 r cc)
      = (∑ i : Fin 1024, xflat V c (ix2 r i) * wcat V c (ix2 i (thirdCol 2 cc))) + bcat V c (ix2 0 (thirdCol 2 cc)) :=
  congrFun (final5 V c) (ix2 r cc)

end Cert.KernelIdeal.HandValue

end
-- ==== Proof.HostValue.lean ====
/-
  The host operations around the two regions, read at an index at the extended reals. Before the projection region:
  the activations flattened to [4096, 1024] (row 2048 b + s of the flat array is row s of batch b); the three weight
  matrices set side by side (column 1024 k + c of the concatenation is column c of the k-th matrix), narrowed to
  bf16, which is the identity on extended reals; the three biases end to end, as one row. After it: each flat
  projection reshaped back to [2, 2048, 1024].
-/
import proofs.«417899_j21706764714760_3_alg».proof.Proof.KI.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The seven arguments at their literal types. -/
abbrev argX (c : Dev nD) : S2x2048x1024.Idx → EReal := m ((c : Thread nD τ).loc main_arg0)
abbrev argWq (c : Dev nD) : S1024x1024.Idx → EReal := m ((c : Thread nD τ).loc main_arg1)
abbrev argBq (c : Dev nD) : S1024.Idx → EReal := m ((c : Thread nD τ).loc main_arg2)
abbrev argWk (c : Dev nD) : S1024x1024.Idx → EReal := m ((c : Thread nD τ).loc main_arg3)
abbrev argBk (c : Dev nD) : S1024.Idx → EReal := m ((c : Thread nD τ).loc main_arg4)
abbrev argWv (c : Dev nD) : S1024x1024.Idx → EReal := m ((c : Thread nD τ).loc main_arg5)
abbrev argBv (c : Dev nD) : S1024.Idx → EReal := m ((c : Thread nD τ).loc main_arg6)

/-! ## The layout operations at an index, over arbitrary contents -/

/-- Flattening [2, 2048, 1024] to [4096, 1024]: flat row `2048 b + s` is row `s` of batch `b`. -/
private theorem flatten_apply (x : S2x2048x1024.Idx → EReal) (b : Fin 2) (s : Fin 2048) (i : Fin 1024) (r : Fin 4096)
    (hr : r.val = b.val * 2048 + s.val) :
    shapeCast S4096x1024 x shapeCasts_S2x2048x1024_S4096x1024 (ix2 r i) = x (ix3 b s i) := by
  refine shapeCast_apply x _ (ix2 r i) (ix3 b s i) ?_
  rw [Shape.rowMajor_val_three, Shape.rowMajor_val_two]
  show (b.val * 2048 + s.val) * 1024 + i.val = r.val * 1024 + i.val
  rw [hr]

/-- Reshaping [4096, 1024] back to [2, 2048, 1024]: entry (b, s, c) is the flat entry (2048 b + s, c). -/
private theorem unflatten_apply (y : S4096x1024.Idx → EReal) (b : Fin 2) (s : Fin 2048) (i : Fin 1024) (r : Fin 4096)
    (hr : r.val = b.val * 2048 + s.val) :
    shapeCast S2x2048x1024 y shapeCasts_S4096x1024_S2x2048x1024 (ix3 b s i) = y (ix2 r i) := by
  refine shapeCast_apply y _ (ix3 b s i) (ix2 r i) ?_
  rw [Shape.rowMajor_val_three, Shape.rowMajor_val_two]
  show r.val * 1024 + i.val = (b.val * 2048 + s.val) * 1024 + i.val
  rw [hr]

/-- Three [1024, 1024] matrices side by side: column `1024 k + c` of the concatenation is column `c` of the k-th. -/
private theorem wcat_apply0 (x0 x1 x2 : S1024x1024.Idx → EReal) (i cc : Fin 1024) (j : Fin 3072) (hj : j.val = cc.val) :
    concatenate S1024x3072 1 [⟨S1024x1024, x0⟩, ⟨S1024x1024, x1⟩, ⟨S1024x1024, x2⟩]
      concatenates_S1024x1024_S1024x1024_S1024x1024_S1024x3072_d1 (ix2 i j) = x0 (ix2 i cc) := by
  refine concatenate_apply_piece 1 _ _ (ix2 i j) 0 (by simp) S1024x1024 x0 rfl rfl 0 rfl (ix2 i cc) ?_ ?_
  · intro b hb
    match b with
    | ⟨0, _⟩ => rfl
    | ⟨1, _⟩ => exact absurd rfl hb
  · show 0 + cc.val = j.val
    omega
private theorem wcat_apply1 (x0 x1 x2 : S1024x1024.Idx → EReal) (i cc : Fin 1024) (j : Fin 3072)
    (hj : j.val = 1024 + cc.val) :
    concatenate S1024x3072 1 [⟨S1024x1024, x0⟩, ⟨S1024x1024, x1⟩, ⟨S1024x1024, x2⟩]
      concatenates_S1024x1024_S1024x1024_S1024x1024_S1024x3072_d1 (ix2 i j) = x1 (ix2 i cc) := by
  refine concatenate_apply_piece 1 _ _ (ix2 i j) 1 (by simp) S1024x1024 x1 rfl rfl 1024 rfl (ix2 i cc) ?_ ?_
  · intro b hb
    match b with
    | ⟨0, _⟩ => rfl
    | ⟨1, _⟩ => exact absurd rfl hb
  · show 1024 + cc.val = j.val
    omega
private theorem wcat_apply2 (x0 x1 x2 : S1024x1024.Idx → EReal) (i cc : Fin 1024) (j : Fin 3072)
    (hj : j.val = 2048 + cc.val) :
    concatenate S1024x3072 1 [⟨S1024x1024, x0⟩, ⟨S1024x1024, x1⟩, ⟨S1024x1024, x2⟩]
      concatenates_S1024x1024_S1024x1024_S1024x1024_S1024x3072_d1 (ix2 i j) = x2 (ix2 i cc) := by
  refine concatenate_apply_piece 1 _ _ (ix2 i j) 2 (by simp) S1024x1024 x2 rfl rfl 2048 rfl (ix2 i cc) ?_ ?_
  · intro b hb
    match b with
    | ⟨0, _⟩ => rfl
    | ⟨1, _⟩ => exact absurd rfl hb
  · show 2048 + cc.val = j.val
    omega

/-- Three vectors of 1024 end to end: entry `1024 k + c` of the concatenation is entry `c` of the k-th. -/
private theorem bcat_apply0 (b0 b1 b2 : S1024.Idx → EReal) (cc : Fin 1024) (j : Fin 3072) (hj : j.val = cc.val) :
    concatenate S3072 0 [⟨S1024, b0⟩, ⟨S1024, b1⟩, ⟨S1024, b2⟩] concatenates_S1024_S1024_S1024_S3072_d0 (ix1 j)
      = b0 (ix1 cc) := by
  refine concatenate_apply_piece 0 _ _ (ix1 j) 0 (by simp) S1024 b0 rfl rfl 0 rfl (ix1 cc) ?_ ?_
  · intro b hb
    match b with
    | ⟨0, _⟩ => exact absurd rfl hb
  · show 0 + cc.val = j.val
    omega
private theorem bcat_apply1 (b0 b1 b2 : S1024.Idx → EReal) (cc : Fin 1024) (j : Fin 3072) (hj : j.val = 1024 + cc.val) :
    concatenate S3072 0 [⟨S1024, b0⟩, ⟨S1024, b1⟩, ⟨S1024, b2⟩] concatenates_S1024_S1024_S1024_S3072_d0 (ix1 j)
      = b1 (ix1 cc) := by
  refine concatenate_apply_piece 0 _ _ (ix1 j) 1 (by simp) S1024 b1 rfl rfl 1024 rfl (ix1 cc) ?_ ?_
  · intro b hb
    match b with
    | ⟨0, _⟩ => exact absurd rfl hb
  · show 1024 + cc.val = j.val
    omega
private theorem bcat_apply2 (b0 b1 b2 : S1024.Idx → EReal) (cc : Fin 1024) (j : Fin 3072) (hj : j.val = 2048 + cc.val) :
    concatenate S3072 0 [⟨S1024, b0⟩, ⟨S1024, b1⟩, ⟨S1024, b2⟩] concatenates_S1024_S1024_S1024_S3072_d0 (ix1 j)
      = b2 (ix1 cc) := by
  refine concatenate_apply_piece 0 _ _ (ix1 j) 2 (by simp) S1024 b2 rfl rfl 2048 rfl (ix1 cc) ?_ ?_
  · intro b hb
    match b with
    | ⟨0, _⟩ => exact absurd rfl hb
  · show 2048 + cc.val = j.val
    omega

/-- A vector of 3072 as the one row of a [1, 3072] matrix. -/
private theorem brow_apply (y : S3072.Idx → EReal) (j : Fin 3072) :
    broadcastInDim S1x3072 ![1] bcast_S3072_S1x3072_1 y (ix2 0 j) = y (ix1 j) := by
  refine broadcastInDim_apply _ bcast_S3072_S1x3072_1 y (ix2 0 j) (ix1 j) (fun a => match a with
    | ⟨0, _⟩ => by show j.val = if (3072 : Nat) = 1 then 0 else j.val; rw [if_neg (by decide)])

/-! ## What the projection region is entered with -/

/-- The flattened activations: flat row `2048 b + s` is row `s` of batch `b`. -/
theorem V1_x (c : Dev nD) (b : Fin 2) (s : Fin 2048) (i : Fin 1024) (r : Fin 4096) (hr : r.val = b.val * 2048 + s.val) :
    (V1 (F := Ideal) m ρ c main_v4 : S4096x1024.Idx → EReal) (ix2 r i) = argX m c (ix3 b s i) := by
  have e : (V1 (F := Ideal) m ρ c main_v4 : S4096x1024.Idx → EReal)
      = shapeCast S4096x1024 (argX m c) shapeCasts_S2x2048x1024_S4096x1024 := by
    show StableHlo.after hostOps0 (W0 m ρ c) (Proc.devRef .tc main_v4) = _
    after_results
    rfl
  rw [e]
  exact flatten_apply (argX m c) b s i r hr

/-- The concatenated weights: the first 1024 columns are the query weights, -/
theorem V1_wq (c : Dev nD) (i cc : Fin 1024) (j : Fin 3072) (hj : j.val = cc.val) :
    (V1 (F := Ideal) m ρ c main_v1 : S1024x3072.Idx → EReal) (ix2 i j) = argWq m c (ix2 i cc) := by
  have e : (V1 (F := Ideal) m ρ c main_v1 : S1024x3072.Idx → EReal)
      = (concatenate S1024x3072 1 [⟨S1024x1024, argWq m c⟩, ⟨S1024x1024, argWk m c⟩, ⟨S1024x1024, argWv m c⟩]
        concatenates_S1024x1024_S1024x1024_S1024x1024_S1024x3072_d1 : S1024x3072.Idx → EReal) := by
    show StableHlo.after hostOps0 (W0 m ρ c) (Proc.devRef .tc main_v1) = _
    after_results
    rfl
  rw [e]
  exact wcat_apply0 (argWq m c) (argWk m c) (argWv m c) i cc j hj
/-- the next 1024 the key weights, -/
theorem V1_wk (c : Dev nD) (i cc : Fin 1024) (j : Fin 3072) (hj : j.val = 1024 + cc.val) :
    (V1 (F := Ideal) m ρ c main_v1 : S1024x3072.Idx → EReal) (ix2 i j) = argWk m c (ix2 i cc) := by
  have e : (V1 (F := Ideal) m ρ c main_v1 : S1024x3072.Idx → EReal)
      = (concatenate S1024x3072 1 [⟨S1024x1024, argWq m c⟩, ⟨S1024x1024, argWk m c⟩, ⟨S1024x1024, argWv m c⟩]
        concatenates_S1024x1024_S1024x1024_S1024x1024_S1024x3072_d1 : S1024x3072.Idx → EReal) := by
    show StableHlo.after hostOps0 (W0 m ρ c) (Proc.devRef .tc main_v1) = _
    after_results
    rfl
  rw [e]
  exact wcat_apply1 (argWq m c) (argWk m c) (argWv m c) i cc j hj
/-- the last 1024 the value weights. -/
theorem V1_wv (c : Dev nD) (i cc : Fin 1024) (j : Fin 3072) (hj : j.val = 2048 + cc.val) :
    (V1 (F := Ideal) m ρ c main_v1 : S1024x3072.Idx → EReal) (ix2 i j) = argWv m c (ix2 i cc) := by
  have e : (V1 (F := Ideal) m ρ c main_v1 : S1024x3072.Idx → EReal)
      = (concatenate S1024x3072 1 [⟨S1024x1024, argWq m c⟩, ⟨S1024x1024, argWk m c⟩, ⟨S1024x1024, argWv m c⟩]
        concatenates_S1024x1024_S1024x1024_S1024x1024_S1024x3072_d1 : S1024x3072.Idx → EReal) := by
    show StableHlo.after hostOps0 (W0 m ρ c) (Proc.devRef .tc main_v1) = _
    after_results
    rfl
  rw [e]
  exact wcat_apply2 (argWq m c) (argWk m c) (argWv m c) i cc j hj

/-- The concatenated bias row, third by third. -/
theorem V1_bq (c : Dev nD) (cc : Fin 1024) (j : Fin 3072) (hj : j.val = cc.val) :
    (V1 (F := Ideal) m ρ c main_v3 : S1x3072.Idx → EReal) (ix2 0 j) = argBq m c (ix1 cc) := by
  have e : (V1 (F := Ideal) m ρ c main_v3 : S1x3072.Idx → EReal)
      = broadcastInDim S1x3072 ![1] bcast_S3072_S1x3072_1
        (concatenate S3072 0 [⟨S1024, argBq m c⟩, ⟨S1024, argBk m c⟩, ⟨S1024, argBv m c⟩]
          concatenates_S1024_S1024_S1024_S3072_d0 : S3072.Idx → EReal) := by
    show StableHlo.after hostOps0 (W0 m ρ c) (Proc.devRef .tc main_v3) = _
    after_results
    rfl
  rw [e, brow_apply]
  exact bcat_apply0 (argBq m c) (argBk m c) (argBv m c) cc j hj
theorem V1_bk (c : Dev nD) (cc : Fin 1024) (j : Fin 3072) (hj : j.val = 1024 + cc.val) :
    (V1 (F := Ideal) m ρ c main_v3 : S1x3072.Idx → EReal) (ix2 0 j) = argBk m c (ix1 cc) := by
  have e : (V1 (F := Ideal) m ρ c main_v3 : S1x3072.Idx → EReal)
      = broadcastInDim S1x3072 ![1] bcast_S3072_S1x3072_1
        (concatenate S3072 0 [⟨S1024, argBq m c⟩, ⟨S1024, argBk m c⟩, ⟨S1024, argBv m c⟩]
          concatenates_S1024_S1024_S1024_S3072_d0 : S3072.Idx → EReal) := by
    show StableHlo.after hostOps0 (W0 m ρ c) (Proc.devRef .tc main_v3) = _
    after_results
    rfl
  rw [e, brow_apply]
  exact bcat_apply1 (argBq m c) (argBk m c) (argBv m c) cc j hj
theorem V1_bv (c : Dev nD) (cc : Fin 1024) (j : Fin 3072) (hj : j.val = 2048 + cc.val) :
    (V1 (F := Ideal) m ρ c main_v3 : S1x3072.Idx → EReal) (ix2 0 j) = argBv m c (ix1 cc) := by
  have e : (V1 (F := Ideal) m ρ c main_v3 : S1x3072.Idx → EReal)
      = broadcastInDim S1x3072 ![1] bcast_S3072_S1x3072_1
        (concatenate S3072 0 [⟨S1024, argBq m c⟩, ⟨S1024, argBk m c⟩, ⟨S1024, argBv m c⟩]
          concatenates_S1024_S1024_S1024_S3072_d0 : S3072.Idx → EReal) := by
    show StableHlo.after hostOps0 (W0 m ρ c) (Proc.devRef .tc main_v3) = _
    after_results
    rfl
  rw [e, brow_apply]
  exact bcat_apply2 (argBq m c) (argBk m c) (argBv m c) cc j hj

/-! ## What the attention region is entered with -/

/-- Each array the attention region reads is the projection region's output array, reshaped: entry (b, s, c) is the
    flat entry (2048 b + s, c). -/
theorem V3_v6 (c : Dev nD) (b : Fin 2) (s : Fin 2048) (cc : Fin 1024) (r : Fin 4096) (hr : r.val = b.val * 2048 + s.val) :
    (V3 (F := Ideal) m ρ c main_v6 : S2x2048x1024.Idx → EReal) (ix3 b s cc)
      = (pdat (F := Ideal) (V1 m ρ) c).arrAt 3 cfg0.N (ix2 r cc) := by
  have e : (V3 (F := Ideal) m ρ c main_v6 : S2x2048x1024.Idx → EReal)
      = shapeCast S2x2048x1024 ((pdat (F := Ideal) (V1 m ρ) c).arrAt 3 cfg0.N : S4096x1024.Idx → EReal)
          shapeCasts_S4096x1024_S2x2048x1024 := by
    show StableHlo.after hostOps1 (W2 m ρ c) (Proc.devRef .tc main_v6) = _
    after_results
    rw [show W2 m ρ c (Proc.devRef .tc main_v5_0) = _ from W2_arr m ρ c 3]
    rfl
  rw [e]
  exact unflatten_apply _ b s cc r hr
theorem V3_v7 (c : Dev nD) (b : Fin 2) (s : Fin 2048) (cc : Fin 1024) (r : Fin 4096) (hr : r.val = b.val * 2048 + s.val) :
    (V3 (F := Ideal) m ρ c main_v7 : S2x2048x1024.Idx → EReal) (ix3 b s cc)
      = (pdat (F := Ideal) (V1 m ρ) c).arrAt 4 cfg0.N (ix2 r cc) := by
  have e : (V3 (F := Ideal) m ρ c main_v7 : S2x2048x1024.Idx → EReal)
      = shapeCast S2x2048x1024 ((pdat (F := Ideal) (V1 m ρ) c).arrAt 4 cfg0.N : S4096x1024.Idx → EReal)
          shapeCasts_S4096x1024_S2x2048x1024 := by
    show StableHlo.after hostOps1 (W2 m ρ c) (Proc.devRef .tc main_v7) = _
    after_results
    rw [show W2 m ρ c (Proc.devRef .tc main_v5_1) = _ from W2_arr m ρ c 4]
    rfl
  rw [e]
  exact unflatten_apply _ b s cc r hr
theorem V3_v8 (c : Dev nD) (b : Fin 2) (s : Fin 2048) (cc : Fin 1024) (r : Fin 4096) (hr : r.val = b.val * 2048 + s.val) :
    (V3 (F := Ideal) m ρ c main_v8 : S2x2048x1024.Idx → EReal) (ix3 b s cc)
      = (pdat (F := Ideal) (V1 m ρ) c).arrAt 5 cfg0.N (ix2 r cc) := by
  have e : (V3 (F := Ideal) m ρ c main_v8 : S2x2048x1024.Idx → EReal)
      = shapeCast S2x2048x1024 ((pdat (F := Ideal) (V1 m ρ) c).arrAt 5 cfg0.N : S4096x1024.Idx → EReal)
          shapeCasts_S4096x1024_S2x2048x1024 := by
    show StableHlo.after hostOps1 (W2 m ρ c) (Proc.devRef .tc main_v8) = _
    after_results
    rw [show W2 m ρ c (Proc.devRef .tc main_v5_2) = _ from W2_arr m ρ c 5]
    rfl
  rw [e]
  exact unflatten_apply _ b s cc r hr

end Cert.KernelIdeal.HandValue

end
-- ==== Proof.Spec.lean ====
/-
  Multi-head self-attention over X : [2, 2048, 1024] with 16 heads of width 64, written index by index on the
  extended reals, in the two spellings the two programs compute.

  Both project X three times, `P[b, s, c] = (∑ i, X[b, s, i] · W[i, c]) + bias[c]`, and split the 1024 columns into
  heads: column `c` lies in head `c / 64` at offset `c % 64`. For a head `h`, a query row `q` and a key row `k`
  the score is the 64-term dot product of Q's and K's head columns, scaled by `1/4096`; a row of scores is turned
  into weights `exp (score − row maximum)`; the output entry is the weighted combination of V's column,
  normalised by the weights' sum.

  The two spellings differ in three places: the scale (a product with `2⁻¹²` against a quotient by `4096`), a
  redundant `max` against `-∞`, and WHERE the normalisation sits (after the weighted sum, or on each weight
  before it). Module `Bridge` shows they agree on finite inputs.
-/
import Idealize.ShloMosaic.PureOps.Ideal
import Idealize.ShloMosaic.Lib.ValueIdx

noncomputable section

namespace Cert.Attn

open Idealize.ShloMosaic Idealize.ShloMosaic.ValueIdx

/-- The activations, a weight matrix, a bias vector: arrays of extended reals over literal shapes. -/
abbrev Act : Type := (⟨3, ![2, 2048, 1024]⟩ : Shape).Idx → EReal
abbrev Mat : Type := (⟨2, ![1024, 1024]⟩ : Shape).Idx → EReal
abbrev Bias : Type := (⟨1, ![1024]⟩ : Shape).Idx → EReal
/-- A projected array, by coordinates (batch, row, column). -/
abbrev Proj : Type := Fin 2 → Fin 2048 → Fin 1024 → EReal

/-- One projection: a row of X against a column of W, plus the bias of that column. -/
def proj (X : Act) (W : Mat) (b : Bias) : Proj := fun bi s c =>
  (∑ i : Fin 1024, X (ix3 bi s i) * W (ix2 i c)) + b (ix1 c)

/-- Column `64 h + d`: offset `d` of head `h`. -/
def col (h : Fin 16) (d : Fin 64) : Fin 1024 := ⟨h.val * 64 + d.val, by omega⟩

/-- The head and the offset of a column. -/
def headOf (c : Fin 1024) : Fin 16 := ⟨c.val / 64, by omega⟩
def offOf (c : Fin 1024) : Fin 64 := ⟨c.val % 64, Nat.mod_lt _ (by decide)⟩

theorem col_head_off (c : Fin 1024) : col (headOf c) (offOf c) = c :=
  Fin.ext (by simp only [col, headOf, offOf]; omega)

/-- The unscaled score: the dot product of a query row's and a key row's head columns. -/
def dotQK (Q K : Proj) (b : Fin 2) (h : Fin 16) (q k : Fin 2048) : EReal :=
  ∑ d : Fin 64, Q b q (col h d) * K b k (col h d)

/-- The maximum of a row of 2048 extended reals, folded from the pattern of `-∞`. -/
def rowMax (s : Fin 2048 → EReal) : EReal :=
  (Finset.univ : Finset (Fin 2048)).fold max (Ideal.ofBits .f32 0xFF800000#32) s

/-! ## The kernel's spelling -/

/-- The scaled score: the product with the pattern of `2⁻¹²`. -/
def scoreK (Q K : Proj) (b : Fin 2) (h : Fin 16) (q k : Fin 2048) : EReal :=
  dotQK Q K b h q k * Ideal.ofBits .f32 0x39800000#32

/-- The weight of key `k` in a row of scores. -/
def weightK (s : Fin 2048 → EReal) (k : Fin 2048) : EReal := Ideal.exp (s k - rowMax s)

/-- The weighted combination of a column of values, normalised AFTER the sum. -/
def attnK (Q K V : Proj) (b : Fin 2) (q : Fin 2048) (h : Fin 16) (d : Fin 64) : EReal :=
  Ideal.div (∑ k : Fin 2048, weightK (scoreK Q K b h q) k * V b k (col h d))
    (∑ k : Fin 2048, weightK (scoreK Q K b h q) k)

/-- The kernel's result as ONE function of the argument arrays. -/
def GK (X : Act) (Wq : Mat) (bq : Bias) (Wk : Mat) (bk : Bias) (Wv : Mat) (bv : Bias) : Act := fun i =>
  attnK (proj X Wq bq) (proj X Wk bk) (proj X Wv bv) (i 0) (i 1) (headOf (i 2)) (offOf (i 2))

/-! ## The reference's spelling -/

/-- The scaled score: the quotient by the pattern of `4096`. -/
def scoreR (Q K : Proj) (b : Fin 2) (h : Fin 16) (q k : Fin 2048) : EReal :=
  Ideal.div (dotQK Q K b h q k) (Ideal.ofBits .f32 0x45800000#32)

/-- The row maximum, once more against `-∞`. -/
def rowMaxR (s : Fin 2048 → EReal) : EReal := max (Ideal.ofBits .f32 0xFF800000#32) (rowMax s)

def weightR (s : Fin 2048 → EReal) (k : Fin 2048) : EReal := Ideal.exp (s k - rowMaxR s)

/-- The normalised weight: the weight over the row's sum (from the pattern of `0`). -/
def softR (s : Fin 2048 → EReal) (k : Fin 2048) : EReal :=
  Ideal.div (weightR s k) (Ideal.ofBits .f32 0x00000000#32 + ∑ k' : Fin 2048, weightR s k')

/-- The weighted combination, each weight normalised BEFORE the sum. -/
def attnR (Q K V : Proj) (b : Fin 2) (q : Fin 2048) (h : Fin 16) (d : Fin 64) : EReal :=
  ∑ k : Fin 2048, softR (scoreR Q K b h q) k * V b k (col h d)

/-- The reference's result as ONE function of the argument arrays. -/
def GR (X : Act) (Wq : Mat) (bq : Bias) (Wk : Mat) (bk : Bias) (Wv : Mat) (bv : Bias) : Act := fun i =>
  attnR (proj X Wq bq) (proj X Wk bk) (proj X Wv bv) (i 0) (i 1) (headOf (i 2)) (offOf (i 2))

end Cert.Attn

end
-- ==== Proof.Entry.lean ====
/-
  The three arrays the attention region is entered with are Spec's projections of the arguments: each is the reshape of
  a flat output array of the projection region, whose entry (2048 b + s, c) is row 2048 b + s of the flattened
  activations (row s of batch b) against column 1024 k + c of the concatenated weights (column c of the k-th
  matrix), plus entry 1024 k + c of the concatenated bias row (entry c of the k-th bias).
-/
import proofs.«417899_j21706764714760_3_alg».proof.Proof.ProjValue
import proofs.«417899_j21706764714760_3_alg».proof.Proof.HostValue
import proofs.«417899_j21706764714760_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The query array the attention region is entered with is the query projection of the arguments. -/
theorem V3_q (c : Dev nD) (b : Fin 2) (s : Fin 2048) (cc : Fin 1024) :
    (V3 (F := Ideal) m ρ c main_v6 : S2x2048x1024.Idx → EReal) (ix3 b s cc)
      = Cert.Attn.proj (argX m c) (argWq m c) (argBq m c) b s cc := by
  rw [V3_v6 m ρ c b s cc ⟨b.val * 2048 + s.val, by omega⟩ rfl, proj_arr3]
  unfold Cert.Attn.proj
  congr 1
  · exact Finset.sum_congr rfl fun i _ =>
      congrArg₂ (· * ·) (V1_x m ρ c b s i ⟨b.val * 2048 + s.val, by omega⟩ rfl)
        (V1_wq m ρ c i cc (thirdCol 0 cc) (by simp [thirdCol]))
  · exact V1_bq m ρ c cc (thirdCol 0 cc) (by simp [thirdCol])

/-- The key array the attention region is entered with is the key projection of the arguments. -/
theorem V3_k (c : Dev nD) (b : Fin 2) (s : Fin 2048) (cc : Fin 1024) :
    (V3 (F := Ideal) m ρ c main_v7 : S2x2048x1024.Idx → EReal) (ix3 b s cc)
      = Cert.Attn.proj (argX m c) (argWk m c) (argBk m c) b s cc := by
  rw [V3_v7 m ρ c b s cc ⟨b.val * 2048 + s.val, by omega⟩ rfl, proj_arr4]
  unfold Cert.Attn.proj
  congr 1
  · exact Finset.sum_congr rfl fun i _ =>
      congrArg₂ (· * ·) (V1_x m ρ c b s i ⟨b.val * 2048 + s.val, by omega⟩ rfl)
        (V1_wk m ρ c i cc (thirdCol 1 cc) (by simp [thirdCol]))
  · exact V1_bk m ρ c cc (thirdCol 1 cc) (by simp [thirdCol])

/-- The value array the attention region is entered with is the value projection of the arguments. -/
theorem V3_v (c : Dev nD) (b : Fin 2) (s : Fin 2048) (cc : Fin 1024) :
    (V3 (F := Ideal) m ρ c main_v8 : S2x2048x1024.Idx → EReal) (ix3 b s cc)
      = Cert.Attn.proj (argX m c) (argWv m c) (argBv m c) b s cc := by
  rw [V3_v8 m ρ c b s cc ⟨b.val * 2048 + s.val, by omega⟩ rfl, proj_arr5]
  unfold Cert.Attn.proj
  congr 1
  · exact Finset.sum_congr rfl fun i _ =>
      congrArg₂ (· * ·) (V1_x m ρ c b s i ⟨b.val * 2048 + s.val, by omega⟩ rfl)
        (V1_wv m ρ c i cc (thirdCol 2 cc) (by simp [thirdCol]))
  · exact V1_bv m ρ c cc (thirdCol 2 cc) (by simp [thirdCol])

end Cert.KernelIdeal.HandValue

end
-- ==== Proof.AttnValue.lean ====
/-
  What the attention region leaves in its output array, at the extended reals, for any contents V it is entered with:
  entry (b, s, c) is the kernel's spelling of attention (Spec's `attnK`) of the three projected arrays the region
  reads, at batch b, query row s, the head and the offset of column c.
-/
import proofs.«417899_j21706764714760_3_alg».proof.Proof.KI.AttnBody
import proofs.«417899_j21706764714760_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's layout operations, by coordinates -/

section Layout

/-- A vector of 512 entries cast to a column reads its entry of the same row. -/
private theorem column_apply (m : FVec Ideal S512 .f32) (r : Fin 512) (u : Fin 1) :
    shapeCast S512x1 m shapeCasts_S512_S512x1 (ix2 r u) = m (ix1 r) :=
  shapeCast_apply m shapeCasts_S512_S512x1 _ _ (by
    have hu : u.val = 0 := by omega
    rw [Shape.rowMajor_val_one, Shape.rowMajor_val_two]
    show r.val = r.val * 1 + u.val
    omega)

/-- A column broadcast along 2048 lanes reads the column's entry of the same row. -/
private theorem spread2048_apply (v : FVec Ideal S512x1 .f32) (r : Fin 512) (k : Fin 2048) :
    broadcastTo S512x2048 v broadcasts_S512x1_S512x2048 (ix2 r k) = v (ix2 r (0 : Fin 1)) := by
  refine broadcastTo_apply v broadcasts_S512x1_S512x2048 (ix2 r k) (ix2 r (0 : Fin 1)) fun ax => ?_
  match ax with
  | ⟨0, _⟩ => rfl
  | ⟨1, _⟩ => rfl

/-- A column broadcast along 64 lanes reads the column's entry of the same row. -/
private theorem spread64_apply (v : FVec Ideal S512x1 .f32) (r : Fin 512) (d : Fin 64) :
    broadcastTo S512x64 v broadcasts_S512x1_S512x64 (ix2 r d) = v (ix2 r (0 : Fin 1)) := by
  refine broadcastTo_apply v broadcasts_S512x1_S512x64 (ix2 r d) (ix2 r (0 : Fin 1)) fun ax => ?_
  match ax with
  | ⟨0, _⟩ => rfl
  | ⟨1, _⟩ => rfl

/-- The 64 lanes from lane `o` of a 512-row block, its unit axis dropped: entry (r, d) is the block's (0, r, o + d). -/
private theorem lanesQ_apply (o : Nat) (h : S512x128.Slices ![0, o] S512x64) (x : Vec Ideal S1x512x128 .bf16)
    (r : Fin 512) (d : Fin 64) (l : Fin 128) (hl : l.val = o + d.val) :
    extractStridedSlice S512x64 ![0, o] (k1_pay2 x) h (ix2 r d) = x (ix3 (0 : Fin 1) r l) :=
  (slice2_axis1_apply o (k1_pay2 x) h r d l hl).trans (shapeCast_1ab_ab_apply x shapeCasts_S1x512x128_S512x128 r l)

/-- The same of a 2048-row block. -/
private theorem lanesK_apply (o : Nat) (h : S2048x128.Slices ![0, o] S2048x64) (x : Vec Ideal S1x2048x128 .bf16)
    (k : Fin 2048) (d : Fin 64) (l : Fin 128) (hl : l.val = o + d.val) :
    extractStridedSlice S2048x64 ![0, o] (k1_pay3 x) h (ix2 k d) = x (ix3 (0 : Fin 1) k l) :=
  (slice2_axis1_apply o (k1_pay3 x) h k d l hl).trans (shapeCast_1ab_ab_apply x shapeCasts_S1x2048x128_S2048x128 k l)

private theorem lanesV_apply (o : Nat) (h : S2048x128.Slices ![0, o] S2048x64) (x : Vec Ideal S1x2048x128 .bf16)
    (k : Fin 2048) (d : Fin 64) (l : Fin 128) (hl : l.val = o + d.val) :
    extractStridedSlice S2048x64 ![0, o] (k1_pay4 x) h (ix2 k d) = x (ix3 (0 : Fin 1) k l) :=
  (slice2_axis1_apply o (k1_pay4 x) h k d l hl).trans (shapeCast_1ab_ab_apply x shapeCasts_S1x2048x128_S2048x128 k l)

end Layout

/-! ## The two matrix products, entry by entry -/

section Products

private theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
private theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
private theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
private theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys, both contracted along their 64 lanes, into zero: entry (r, k) is the dot product of query
    row r and key row k. -/
private theorem qk_apply (q : FVec Ideal S512x64 .bf16) (kk : FVec Ideal S2048x64 .bf16) (r : Fin 512) (k : Fin 2048) :
    matmul dot_S512x64_S2048x64_S512x2048_1_1_0_0_n_n none q kk (constant (F := Ideal) S512x2048 .f32 0x00000000#32) (ix2 r k)
      = ∑ d : Fin 64, q (ix2 r d) * kk (ix2 k d) := by
  show FloatOps.matmul dot_S512x64_S2048x64_S512x2048_1_1_0_0_n_n none q kk (constant (F := Ideal) S512x2048 .f32 0x00000000#32) (ix2 r k) = _
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r k) ((ValueIdx.contrEquiv1 dot_S512x64_S2048x64_S512x2048_1_1_0_0_n_n 64 rfl rfl).symm d) = ix2 r d := funext fun a => Fin.ext (by
    match a with
    | ⟨0, _⟩ => exact qk_lhs_0 _ _
    | ⟨1, _⟩ => exact (qk_lhs_1 _ _).trans hk)
  have er : dot_S512x64_S2048x64_S512x2048_1_1_0_0_n_n.rhsIdx (ix2 r k) ((ValueIdx.contrEquiv1 dot_S512x64_S2048x64_S512x2048_1_1_0_0_n_n 64 rfl rfl).symm d) = ix2 k d := funext fun a => Fin.ext (by
    match a with
    | ⟨0, _⟩ => exact qk_rhs_0 _ _
    | ⟨1, _⟩ => exact (qk_rhs_1 _ _).trans hk)
  rw [el, er]

private theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
private theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
private theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
private theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values, contracted along the 2048 keys, into zero: entry (r, d) is the weighted sum of the values'
    lane d. -/
private theorem pv_apply (p : FVec Ideal S512x2048 .bf16) (vv : FVec Ideal S2048x64 .bf16) (r : Fin 512) (d : Fin 64) :
    matmul dot_S512x2048_S2048x64_S512x64_1_0_0_1_n_n none p vv (constant (F := Ideal) S512x64 .f32 0x00000000#32) (ix2 r d)
      = ∑ k : Fin 2048, p (ix2 r k) * vv (ix2 k d) := by
  show FloatOps.matmul dot_S512x2048_S2048x64_S512x64_1_0_0_1_n_n none p vv (constant (F := Ideal) S512x64 .f32 0x00000000#32) (ix2 r d) = _
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

end Products

/-! ## The two row reductions, entry by entry -/

section Reductions

/-- A row index with the lane `k` put back on the reduced axis is (r, k). -/
private theorem lift_row (r : Fin 512) (k : Fin (S512x2048.size 1)) :
    reduces_S512x2048_S512.lift (ix1 r) k = ix2 r (⟨k.val, k.isLt⟩ : Fin 2048) := by
  funext c
  refine Fin.ext ?_
  match c with
  | ⟨0, _⟩ => rfl
  | ⟨1, _⟩ => rfl

/-- The maximum along the lanes, from the pattern of `-∞`, is the row maximum. -/
private theorem rowmax_apply (s : FVec Ideal S512x2048 .f32) (r : Fin 512) :
    multiReduction .maximumf [1] S512 s 0xFF800000#32 reduces_S512x2048_S512 (.inl rfl) rfl (ix1 r)
      = Cert.Attn.rowMax (fun k => s (ix2 r k)) := by
  refine (Ideal.multiReduction_maximumf_single s 0xFF800000#32 reduces_S512x2048_S512 (.inl rfl) rfl (ix1 r)).trans ?_
  have hf : (s ∘ reduces_S512x2048_S512.lift (ix1 r)) = fun k : Fin 2048 => s (ix2 r k) := funext fun k => by
    show s (reduces_S512x2048_S512.lift (ix1 r) k) = _
    rw [lift_row]
    rfl
  rw [hf]
  rfl

/-- The sum along the lanes is the row's sum. -/
private theorem rowsum_apply (e : FVec Ideal S512x2048 .f32) (r : Fin 512) :
    multiReduction .add [1] S512 e 0x00000000#32 reduces_S512x2048_S512 (.inl rfl) rfl (ix1 r)
      = ∑ k : Fin 2048, e (ix2 r k) := by
  refine (Ideal.multiReduction_add_single e 0x00000000#32 reduces_S512x2048_S512 (.inl rfl) rfl (ix1 r)).trans ?_
  show ∑ k : Fin 2048, e (reduces_S512x2048_S512.lift (ix1 r) k) = _
  exact Finset.sum_congr rfl fun k _ => congrArg e (lift_row r k)

end Reductions

/-! ## One head of the body: 512 query rows, 2048 key and value rows, 64 lanes -/

section Head

open Cert.Attn (rowMax weightK)

/-- The scaled scores. -/
def headScores (q : FVec Ideal S512x64 .bf16) (kk : FVec Ideal S2048x64 .bf16) : FVec Ideal S512x2048 .f32 :=
  mulf (matmul dot_S512x64_S2048x64_S512x2048_1_1_0_0_n_n none q kk (constant S512x2048 .f32 0x00000000#32))
    (broadcast S512x2048 (Scalar.ofBits .f32 0x39800000#32))

/-- The weights: the exponential of each score less its row's maximum. -/
def headWeights (q : FVec Ideal S512x64 .bf16) (kk : FVec Ideal S2048x64 .bf16) : FVec Ideal S512x2048 .f32 :=
  exp (subf (headScores q kk)
    (broadcastTo S512x2048
      (shapeCast S512x1 (multiReduction .maximumf [1] S512 (headScores q kk) 0xFF800000#32 reduces_S512x2048_S512 (.inl rfl) rfl)
        shapeCasts_S512_S512x1)
      broadcasts_S512x1_S512x2048))

/-- The rows' sums of weights, as a column. -/
def headSums (q : FVec Ideal S512x64 .bf16) (kk : FVec Ideal S2048x64 .bf16) : FVec Ideal S512x1 .f32 :=
  shapeCast S512x1 (multiReduction .add [1] S512 (headWeights q kk) 0x00000000#32 reduces_S512x2048_S512 (.inl rfl) rfl)
    shapeCasts_S512_S512x1

/-- The weights multiplied into the values. -/
def headMix (q : FVec Ideal S512x64 .bf16) (kk vv : FVec Ideal S2048x64 .bf16) : FVec Ideal S512x64 .f32 :=
  matmul dot_S512x2048_S2048x64_S512x64_1_0_0_1_n_n none (truncf .bf16 (headWeights q kk) bitsLt_bf16_f32) vv
    (constant S512x64 .f32 0x00000000#32)

/-- The head's result: the weighted sums over the rows' sums. -/
def headOut (q : FVec Ideal S512x64 .bf16) (kk vv : FVec Ideal S2048x64 .bf16) : FVec Ideal S512x64 .f32 :=
  divf (headMix q kk vv) (broadcastTo S512x64 (headSums q kk) broadcasts_S512x1_S512x64)

/-- A row of scaled scores, key by key. -/
def scoreRow (q : FVec Ideal S512x64 .bf16) (kk : FVec Ideal S2048x64 .bf16) (r : Fin 512) (k : Fin 2048) : EReal :=
  (∑ d : Fin 64, q (ix2 r d) * kk (ix2 k d)) * Ideal.ofBits .f32 0x39800000#32

private theorem headScores_apply (q : FVec Ideal S512x64 .bf16) (kk : FVec Ideal S2048x64 .bf16) (r : Fin 512) (k : Fin 2048) :
    headScores q kk (ix2 r k) = scoreRow q kk r k := by
  unfold headScores scoreRow
  show matmul dot_S512x64_S2048x64_S512x2048_1_1_0_0_n_n none q kk (constant (F := Ideal) S512x2048 .f32 0x00000000#32) (ix2 r k)
      * Ideal.ofBits .f32 0x39800000#32 = _
  rw [qk_apply]

private theorem headWeights_apply (q : FVec Ideal S512x64 .bf16) (kk : FVec Ideal S2048x64 .bf16) (r : Fin 512) (k : Fin 2048) :
    headWeights q kk (ix2 r k) = weightK (scoreRow q kk r) k := by
  have hrow : (fun k => headScores q kk (ix2 r k)) = scoreRow q kk r := funext fun k => headScores_apply q kk r k
  unfold headWeights
  show Ideal.exp (headScores q kk (ix2 r k)
      - broadcastTo S512x2048
          (shapeCast S512x1 (multiReduction .maximumf [1] S512 (headScores q kk) 0xFF800000#32 reduces_S512x2048_S512 (.inl rfl) rfl)
            shapeCasts_S512_S512x1)
          broadcasts_S512x1_S512x2048 (ix2 r k)) = _
  rw [spread2048_apply, column_apply, rowmax_apply, headScores_apply, hrow]
  rfl

private theorem headSums_apply (q : FVec Ideal S512x64 .bf16) (kk : FVec Ideal S2048x64 .bf16) (r : Fin 512) (u : Fin 1) :
    headSums q kk (ix2 r u) = ∑ k : Fin 2048, weightK (scoreRow q kk r) k := by
  unfold headSums
  rw [column_apply, rowsum_apply]
  exact Finset.sum_congr rfl fun k _ => headWeights_apply q kk r k

private theorem headMix_apply (q : FVec Ideal S512x64 .bf16) (kk vv : FVec Ideal S2048x64 .bf16) (r : Fin 512) (d : Fin 64) :
    headMix q kk vv (ix2 r d) = ∑ k : Fin 2048, weightK (scoreRow q kk r) k * vv (ix2 k d) := by
  unfold headMix
  rw [pv_apply]
  refine Finset.sum_congr rfl fun k _ => ?_
  show headWeights q kk (ix2 r k) * vv (ix2 k d) = _
  rw [headWeights_apply]

/-- An entry of a head's result: the weighted combination of the values' lane over the weights' sum. -/
private theorem headOut_apply (q : FVec Ideal S512x64 .bf16) (kk vv : FVec Ideal S2048x64 .bf16) (r : Fin 512) (d : Fin 64) :
    headOut q kk vv (ix2 r d)
      = Ideal.div (∑ k : Fin 2048, weightK (scoreRow q kk r) k * vv (ix2 k d)) (∑ k : Fin 2048, weightK (scoreRow q kk r) k) := by
  unfold headOut
  show Ideal.div (headMix q kk vv (ix2 r d)) (broadcastTo S512x64 (headSums q kk) broadcasts_S512x1_S512x64 (ix2 r d)) = _
  rw [spread64_apply, headSums_apply, headMix_apply]

end Head

/-! ## The body's payload, entry by entry -/

section Payload

open Cert.Attn (weightK)

/-- Lane `64 o + d` of a 128-lane block: lane `d` of its half `o`. -/
def lane (o : Fin 2) (d : Fin 64) : Fin 128 := ⟨o.val * 64 + d.val, by omega⟩

/-- The half a lane lies in. -/
def halfOf (l : Fin 128) : Fin 2 := ⟨l.val / 64, by have := l.isLt; omega⟩

/-- The scaled scores of query row `r` of a block against the 2048 key rows, over the 64 lanes of half `o`. -/
def blkScore (x0 : Vec Ideal S1x512x128 .bf16) (x1 : Vec Ideal S1x2048x128 .bf16) (r : Fin 512) (o : Fin 2) (k : Fin 2048) : EReal :=
  (∑ d : Fin 64, x0 (ix3 (0 : Fin 1) r (lane o d)) * x1 (ix3 (0 : Fin 1) k (lane o d))) * Ideal.ofBits .f32 0x39800000#32

/-- Attention on the blocks: at row `r` and lane `l`, the values' lane `l` combined with the weights of `l`'s half,
    over the weights' sum. -/
def blkAttn (x0 : Vec Ideal S1x512x128 .bf16) (x1 x2 : Vec Ideal S1x2048x128 .bf16) (r : Fin 512) (l : Fin 128) : EReal :=
  Ideal.div (∑ k : Fin 2048, weightK (blkScore x0 x1 r (halfOf l)) k * x2 (ix3 (0 : Fin 1) k l))
    (∑ k : Fin 2048, weightK (blkScore x0 x1 r (halfOf l)) k)

/-- A head's result on the 64 lanes from lane `o = 64 oo` of the three blocks. -/
private theorem head_block (o : Nat) (oo : Fin 2) (hoo : o = oo.val * 64) (hq : S512x128.Slices ![0, o] S512x64)
    (hk : S2048x128.Slices ![0, o] S2048x64) (x0 : Vec Ideal S1x512x128 .bf16) (x1 x2 : Vec Ideal S1x2048x128 .bf16)
    (r : Fin 512) (d : Fin 64) (l : Fin 128) (hl : l.val = o + d.val) :
    headOut (extractStridedSlice S512x64 ![0, o] (k1_pay2 x0) hq) (extractStridedSlice S2048x64 ![0, o] (k1_pay3 x1) hk)
        (extractStridedSlice S2048x64 ![0, o] (k1_pay4 x2) hk) (ix2 r d)
      = Ideal.div (∑ k : Fin 2048, weightK (blkScore x0 x1 r oo) k * x2 (ix3 (0 : Fin 1) k l))
          (∑ k : Fin 2048, weightK (blkScore x0 x1 r oo) k) := by
  rw [headOut_apply]
  have hs : scoreRow (extractStridedSlice S512x64 ![0, o] (k1_pay2 x0) hq) (extractStridedSlice S2048x64 ![0, o] (k1_pay3 x1) hk) r
      = blkScore x0 x1 r oo := funext fun k => by
    unfold scoreRow blkScore
    refine congrArg (· * Ideal.ofBits .f32 0x39800000#32) (Finset.sum_congr rfl fun d' _ => ?_)
    rw [lanesQ_apply o hq x0 r d' (lane oo d') (by show oo.val * 64 + d'.val = o + d'.val; omega),
      lanesK_apply o hk x1 k d' (lane oo d') (by show oo.val * 64 + d'.val = o + d'.val; omega)]
  rw [hs]
  refine congrArg (fun z => Ideal.div z _) (Finset.sum_congr rfl fun k _ => ?_)
  rw [lanesV_apply o hk x2 k d l hl]

/-- THE PAYLOAD: what the body stores, at row `r` and lane `l` of the output block, is attention on the blocks. -/
theorem payload_apply (x0 : Vec Ideal S1x512x128 .bf16) (x1 x2 : Vec Ideal S1x2048x128 .bf16) (r : Fin 512) (l : Fin 128) :
    k1_pay1 (k1_pay5 x0 x1 x2) (k1_pay7 x0 x1) (k1_pay8 x0 x1 x2) (ix3 (0 : Fin 1) r l) = blkAttn x0 x1 x2 r l := by
  show shapeCast S1x512x128 (concatenate S512x128 1 [⟨S512x64, k1_pay5 x0 x1 x2⟩,
      ⟨S512x64, divf (k1_pay8 x0 x1 x2) (broadcastTo S512x64 (k1_pay7 x0 x1) broadcasts_S512x1_S512x64)⟩]
      concatenates_S512x64_S512x64_S512x128_d1) shapeCasts_S512x128_S1x512x128 (ix3 (0 : Fin 1) r l) = _
  refine (shapeCast_ab_1ab_apply _ shapeCasts_S512x128_S1x512x128 (0 : Fin 1) r l).trans ?_
  unfold blkAttn
  by_cases hl : l.val < 64
  · refine (concatenate_pair_apply_left (1 : Fin S512x128.rank) _ _ concatenates_S512x64_S512x64_S512x128_d1 (ix2 r l) rfl
      (ix2 r (⟨l.val, hl⟩ : Fin 64)) (fun b => by match b with | ⟨0, _⟩ => rfl | ⟨1, _⟩ => rfl)).trans ?_
    show headOut (extractStridedSlice S512x64 ![0, 0] (k1_pay2 x0) slices_S512x128_o0_0_S512x64)
        (extractStridedSlice S2048x64 ![0, 0] (k1_pay3 x1) slices_S2048x128_o0_0_S2048x64)
        (extractStridedSlice S2048x64 ![0, 0] (k1_pay4 x2) slices_S2048x128_o0_0_S2048x64) (ix2 r (⟨l.val, hl⟩ : Fin 64)) = _
    rw [head_block 0 0 rfl slices_S512x128_o0_0_S512x64 slices_S2048x128_o0_0_S2048x64 x0 x1 x2 r ⟨l.val, hl⟩ l
      (by show l.val = 0 + l.val; omega),
      show halfOf l = 0 from Fin.ext (by show l.val / 64 = 0; omega)]
  · have hl2 : l.val - 64 < 64 := by have := l.isLt; omega
    refine (concatenate_pair_apply_right (1 : Fin S512x128.rank) _ _ concatenates_S512x64_S512x64_S512x128_d1 (ix2 r l) rfl rfl
      (ix2 r (⟨l.val - 64, hl2⟩ : Fin 64))
      (fun b hb => by match b with | ⟨0, _⟩ => rfl | ⟨1, _⟩ => exact (hb (Fin.ext rfl)).elim)
      (by show l.val - 64 + 64 = l.val; omega)).trans ?_
    show headOut (extractStridedSlice S512x64 ![0, 64] (k1_pay2 x0) slices_S512x128_o0_64_S512x64)
        (extractStridedSlice S2048x64 ![0, 64] (k1_pay3 x1) slices_S2048x128_o0_64_S2048x64)
        (extractStridedSlice S2048x64 ![0, 64] (k1_pay4 x2) slices_S2048x128_o0_64_S2048x64) (ix2 r (⟨l.val - 64, hl2⟩ : Fin 64)) = _
    rw [head_block 64 1 rfl slices_S512x128_o0_64_S512x64 slices_S2048x128_o0_64_S2048x64 x0 x1 x2 r ⟨l.val - 64, hl2⟩ l
      (by show l.val = 64 + (l.val - 64); omega),
      show halfOf l = 1 from Fin.ext (by show l.val / 64 = 1; have := l.isLt; omega)]

end Payload

/-! ## Attention on blocks is attention on the arrays the blocks are cut from -/

section Blocks

open Cert.Attn (attnK scoreK dotQK weightK col headOf offOf)

/-- The stored block at any of its indices. -/
private theorem out_block (x0 : Vec Ideal S1x512x128 .bf16) (x1 x2 : Vec Ideal S1x2048x128 .bf16) (y : S1x512x128.Idx) :
    k1_pay1 (k1_pay5 x0 x1 x2) (k1_pay7 x0 x1) (k1_pay8 x0 x1 x2) y = blkAttn x0 x1 x2 (y 1) (y 2) := by
  obtain ⟨u, r, l, rfl⟩ : ∃ (u : Fin 1) (r : Fin 512) (l : Fin 128), y = ix3 u r l := ⟨y 0, y 1, y 2, eq_ix3 y⟩
  obtain rfl : u = 0 := Subsingleton.elim _ _
  exact payload_apply x0 x1 x2 r l

/-- When the query block holds row `s` of batch `b` at its row `r`, and the three blocks hold the columns
    `128 hp … 128 hp + 127` of their arrays (keys and values at every row), attention on the blocks at (r, l) is
    attention on the arrays at batch `b`, row `s`, the head and the offset of column `128 hp + l`: that column lies in
    head `2 hp + l / 64`, whose 64 columns are the lanes of `l`'s half. -/
private theorem blkAttn_eq (x0 : Vec Ideal S1x512x128 .bf16) (x1 x2 : Vec Ideal S1x2048x128 .bf16)
    (Q K W : S2x2048x1024.Idx → EReal) (b : Fin 2) (s : Fin 2048) (cc : Fin 1024) (r : Fin 512) (l : Fin 128) (hp : Nat)
    (hcc : cc.val = hp * 128 + l.val)
    (h0 : ∀ (l' : Fin 128) (c' : Fin 1024), c'.val = hp * 128 + l'.val → x0 (ix3 (0 : Fin 1) r l') = Q (ix3 b s c'))
    (h1 : ∀ (k : Fin 2048) (l' : Fin 128) (c' : Fin 1024), c'.val = hp * 128 + l'.val → x1 (ix3 (0 : Fin 1) k l') = K (ix3 b k c'))
    (h2 : ∀ (k : Fin 2048) (l' : Fin 128) (c' : Fin 1024), c'.val = hp * 128 + l'.val → x2 (ix3 (0 : Fin 1) k l') = W (ix3 b k c')) :
    blkAttn x0 x1 x2 r l
      = attnK (fun b s c' => Q (ix3 b s c')) (fun b s c' => K (ix3 b s c')) (fun b s c' => W (ix3 b s c')) b s (headOf cc) (offOf cc) := by
  unfold blkAttn Cert.Attn.attnK
  have hs : blkScore x0 x1 r (halfOf l)
      = scoreK (fun b s c' => Q (ix3 b s c')) (fun b s c' => K (ix3 b s c')) b (headOf cc) s := funext fun k => by
    unfold blkScore Cert.Attn.scoreK Cert.Attn.dotQK
    refine congrArg (· * Ideal.ofBits .f32 0x39800000#32) (Finset.sum_congr rfl fun d _ => ?_)
    have hc : (col (headOf cc) d).val = hp * 128 + (lane (halfOf l) d).val := by
      show cc.val / 64 * 64 + d.val = hp * 128 + (l.val / 64 * 64 + d.val)
      have := l.isLt
      omega
    rw [h0 _ _ hc, h1 k _ _ hc]
  rw [hs]
  have hv : ∀ k : Fin 2048, x2 (ix3 (0 : Fin 1) k l) = W (ix3 b k (col (headOf cc) (offOf cc))) := fun k => by
    rw [Cert.Attn.col_head_off]
    exact h2 k l cc hcc
  exact congrArg (fun z => Ideal.div z _) (Finset.sum_congr rfl fun k _ => by rw [hv k])

end Blocks

variable (V : (c : Dev nD) → (b : Ref sig .tc) → Buf (Elt Ideal) ((c : Thread nD τ).loc b))

/-- The three arrays the region reads, at their literal types. -/
abbrev qarr (c : Dev nD) : S2x2048x1024.Idx → EReal := V c main_v6
abbrev karr (c : Dev nD) : S2x2048x1024.Idx → EReal := V c main_v7
abbrev varr (c : Dev nD) : S2x2048x1024.Idx → EReal := V c main_v8

/-! ## From the blocks to the array -/

/-- The whole output array: attention, in the kernel's spelling, entry by entry. -/
abbrev attnArr (c : Dev nD) : S2x2048x1024.Idx → EReal := fun i =>
  Cert.Attn.attnK (fun b s c' => qarr V c (ix3 b s c')) (fun b s c' => karr V c (ix3 b s c'))
    (fun b s c' => varr V c (ix3 b s c')) (i 0) (i 1) (Cert.Attn.headOf (i 2)) (Cert.Attn.offOf (i 2))

private theorem hz3 : (![0, 0, 0] : Fin 3 → Nat) = fun _ => 0 := funext fun a => by fin_cases a <;> rfl

/-- The index maps over the 64 points: every window moves with the output along the batch and the column-pair axes;
    the query block also along the row-block axis, where the keys' and the values' block is the whole of the rows. -/
private theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3)
    ∧ win1_2.index t (0 : Fin 3) = win1_3.index t (0 : Fin 3) ∧ win1_2.index t (1 : Fin 3) = 0
    ∧ win1_2.index t (2 : Fin 3) = win1_3.index t (2 : Fin 3)
    ∧ win1_3.index t (0 : Fin 3) ≤ 1 ∧ win1_3.index t (1 : Fin 3) ≤ 3 ∧ win1_3.index t (2 : Fin 3) ≤ 7 :=
  (by decide +kernel : ∀ t : Fin grid1.N, _)

/-- Every block of the output is some point's. -/
private theorem idx_onto : ∀ (q0 : Fin 2) (q1 : Fin 4) (q2 : Fin 8), ∃ t : Fin cfg1.N, win1_3.index t = ![q0.val, q1.val, q2.val] :=
  (by decide +kernel : ∀ (q0 : Fin 2) (q1 : Fin 4) (q2 : Fin 8), ∃ t : Fin grid1.N, win1_3.index t = ![q0.val, q1.val, q2.val])

/-- What point `t` writes back is block `t` of attention of the three arrays as the region finds them. -/
private theorem flushed_eq (c : Dev nD) (t : Fin cfg1.N) :
    (adat (F := Ideal) V c).flushed 3 t = ((cfg1.win 3).blk t).view.read (Elt Ideal) (attnArr V c) := by
  show (cfg1.win 3).cut (grid1.coords t) ((adat (F := Ideal) V c).after 3 t) = _
  rw [aafter3]
  unfold aout3
  rw [View.canon_unit_zero hz3]
  simp only [View.ld_unit_zero (S := S1x512x128) hz3, View.ld_unit_zero (S := S1x2048x128) hz3]
  obtain ⟨e00, e01, e02, e10, e11, e12, e20, e21, e22, b0, b1, b2⟩ := idx_facts t
  funext j
  have hj0 : (j 0).val < 1 := (j 0).isLt
  have hj1 : (j 1).val < 512 := (j 1).isLt
  have hj2 : (j 2).val < 128 := (j 2).isLt
  refine (out_block (ablk V c 0 t) (ablk V c 1 t) (ablk V c 2 t) _).trans ?_
  show _ = attnArr V c (((cfg1.win 3).blk t).view.emb j)
  refine blkAttn_eq (ablk V c 0 t) (ablk V c 1 t) (ablk V c 2 t) (qarr V c) (karr V c) (varr V c) _ _ _ _ _
    (win1_3.index t (2 : Fin 3)) ?_ ?_ ?_ ?_
  · show win1_3.index t (2 : Fin 3) * 128 + 1 * (j 2).val = win1_3.index t (2 : Fin 3) * 128 + (j 2).val
    omega
  · intro l' c' hc'
    show V c main_v6 (((cfg1.win 0).blk t).view.emb (ix3 (0 : Fin 1) (⟨(j 1).val, hj1⟩ : Fin 512) l')) = V c main_v6 _
    refine congrArg (V c main_v6) (funext fun a => Fin.ext ?_)
    match a with
    | ⟨0, _⟩ =>
      show win1_0.index t (0 : Fin 3) * 1 + 1 * 0 = win1_3.index t (0 : Fin 3) * 1 + 1 * (j 0).val
      omega
    | ⟨1, _⟩ =>
      show win1_0.index t (1 : Fin 3) * 512 + 1 * (j 1).val = win1_3.index t (1 : Fin 3) * 512 + 1 * (j 1).val
      omega
    | ⟨2, _⟩ =>
      show win1_0.index t (2 : Fin 3) * 128 + 1 * l'.val = c'.val
      omega
  · intro k l' c' hc'
    show V c main_v7 (((cfg1.win 1).blk t).view.emb (ix3 (0 : Fin 1) k l')) = V c main_v7 _
    refine congrArg (V c main_v7) (funext fun a => Fin.ext ?_)
    match a with
    | ⟨0, _⟩ =>
      show win1_1.index t (0 : Fin 3) * 1 + 1 * 0 = win1_3.index t (0 : Fin 3) * 1 + 1 * (j 0).val
      omega
    | ⟨1, _⟩ =>
      show win1_1.index t (1 : Fin 3) * 2048 + 1 * k.val = k.val
      omega
    | ⟨2, _⟩ =>
      show win1_1.index t (2 : Fin 3) * 128 + 1 * l'.val = c'.val
      omega
  · intro k l' c' hc'
    show V c main_v8 (((cfg1.win 2).blk t).view.emb (ix3 (0 : Fin 1) k l')) = V c main_v8 _
    refine congrArg (V c main_v8) (funext fun a => Fin.ext ?_)
    match a with
    | ⟨0, _⟩ =>
      show win1_2.index t (0 : Fin 3) * 1 + 1 * 0 = win1_3.index t (0 : Fin 3) * 1 + 1 * (j 0).val
      omega
    | ⟨1, _⟩ =>
      show win1_2.index t (1 : Fin 3) * 2048 + 1 * k.val = k.val
      omega
    | ⟨2, _⟩ =>
      show win1_2.index t (2 : Fin 3) * 128 + 1 * l'.val = c'.val
      omega

/-- An index of the array is in point `t`'s block iff each coordinate is in the block's range on its axis. -/
private theorem mem_blk (t : Fin cfg1.N) (i : S2x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v9).slice (win1_3.rect t)).set ↔ _
  rw [View.set_slice_whole, Rect.mem_set_unit]
  exact Iff.rfl

/-- The blocks fill the array: entry (b, s, c) is in the block of the point whose block index is (b, s / 512, c / 128). -/
private theorem cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 128 ≤ (i 2).val ∧ (i 2).val < win1_3.index t (2 : Fin 3) * 128 + 128
    omega

/-- So the output array ends holding attention of the three arrays, entry by entry. -/
private theorem attn_final (c : Dev nD) : (adat (F := Ideal) V c).arrAt 3 cfg1.N = attnArr V c :=
  (adat (F := Ideal) V c).arrAt_eq_of_cover 3 (attnArr V c) (fun t _ => flushed_eq V c t) cover

/-- The output array after the last point: attention, in the kernel's spelling, of the three arrays. -/
theorem attn_arr (c : Dev nD) (b : Fin 2) (s : Fin 2048) (cc : Fin 1024) :
    (adat (F := Ideal) V c).arrAt 3 cfg1.N (ix3 b s cc)
      = Cert.Attn.attnK (fun b s c' => qarr V c (ix3 b s c')) (fun b s c' => karr V c (ix3 b s c'))
          (fun b s c' => varr V c (ix3 b s c')) b s (Cert.Attn.headOf cc) (Cert.Attn.offOf cc) := by
  exact congrFun (attn_final V c) (ix3 b s cc)

end Cert.KernelIdeal.HandValue

end
-- ==== Proof.KernelValue.lean ====
/-
  The idealized kernel's result array after the run, as ONE function of the argument arrays: the attention region's
  output array is the kernel's spelling of attention of the three arrays it is entered with, and those are the three
  projections of the arguments.
-/
import proofs.«417899_j21706764714760_3_alg».proof.Proof.Entry
import proofs.«417899_j21706764714760_3_alg».proof.Proof.AttnValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem kernel_value (c : Dev nD) :
    (adat (F := Ideal) (V3 m ρ) c).arrAt 3 cfg1.N
      = Cert.Attn.GK (argX m c) (argWq m c) (argBq m c) (argWk m c) (argBk m c) (argWv m c) (argBv m c) := by
  funext i
  obtain ⟨b, s, cc, rfl⟩ : ∃ (b : Fin 2) (s : Fin 2048) (cc : Fin 1024), i = ix3 b s cc := ⟨i 0, i 1, i 2, eq_ix3 i⟩
  rw [attn_arr]
  have hq : (fun b s c' => qarr (V3 m ρ) c (ix3 b s c')) = Cert.Attn.proj (argX m c) (argWq m c) (argBq m c) := by
    funext b s c'; exact V3_q m ρ c b s c'
  have hk : (fun b s c' => karr (V3 m ρ) c (ix3 b s c')) = Cert.Attn.proj (argX m c) (argWk m c) (argBk m c) := by
    funext b s c'; exact V3_k m ρ c b s c'
  have hv : (fun b s c' => varr (V3 m ρ) c (ix3 b s c')) = Cert.Attn.proj (argX m c) (argWv m c) (argBv m c) := by
    funext b s c'; exact V3_v m ρ c b s c'
  rw [hq, hk, hv]
  rfl

end Cert.KernelIdeal.HandValue

end
-- ==== Proof.RefValue.lean ====
import proofs.«417899_j21706764714760_3_alg».proof.Proof.Gen.ReferenceIdeal.Read
import proofs.«417899_j21706764714760_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The composed index maps, by coordinates -/

section Indices

open Cert.Attn

/-- Splitting 1024 columns into 16 heads of 64 and moving the head axis outwards reads row `s`, column `64 h + d`. -/
private theorem idx_split (b : Fin 2) (h : Fin 16) (s : Fin 2048) (d : Fin 64) :
    idx_main_v4 (idx_main_v5 (ix4 b h s d)) = ix3 b s (col h d) := by
  funext a
  refine Fin.ext ?_
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- Merging the heads back reads column `c` at head `c / 64`, offset `c % 64`. -/
private theorem idx_merge (b : Fin 2) (s : Fin 2048) (c : Fin 1024) :
    idx_main_v34 (ix3 b s c) = ix4 b s (headOf c) (offOf c) := by
  funext a
  refine Fin.ext ?_
  have hb := b.isLt; have hs := s.isLt; have hc := c.isLt
  match a with
  | ⟨0, _⟩ => show ((b.val * 2048 + s.val) * 1024 + c.val) / 2097152 = b.val; omega
  | ⟨1, _⟩ => show ((b.val * 2048 + s.val) * 1024 + c.val) / 1024 % 2048 = s.val; omega
  | ⟨2, _⟩ => show ((b.val * 2048 + s.val) * 1024 + c.val) / 64 % 16 = c.val / 64; omega
  | ⟨3, _⟩ => show ((b.val * 2048 + s.val) * 1024 + c.val) % 64 = c.val % 64; omega

end Indices

/-! ## The three projections -/

section Stages

open Cert.Attn

variable (x0 : (⟨S2x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- A row of the activations against a column of the weights, plus that column's bias. -/
private theorem rowcol (W : (⟨S1024x1024, .f32⟩ : BufTy).Contents (Elt Ideal)) (bias : (⟨S1024, .f32⟩ : BufTy).Contents (Elt Ideal))
    (b : Fin 2) (s : Fin 2048) (c : Fin 1024) :
    (∑ k : Fin 1024, x0 (lidx_main_v0 (ix3 b s c) k) * W (ridx_main_v0 (ix3 b s c) k))
      + bias (idx_main_v1 (idx_main_v2 (ix3 b s c))) = proj x0 W bias b s c := by
  unfold proj
  have e1 : ∀ k : Fin 1024, lidx_main_v0 (ix3 b s c) k = ix3 b s k := fun k =>
    funext fun a => Fin.ext (by match a with | ⟨0, _⟩ => rfl | ⟨1, _⟩ => rfl | ⟨2, _⟩ => rfl)
  have e2 : ∀ k : Fin 1024, ridx_main_v0 (ix3 b s c) k = ix2 k c := fun k =>
    funext fun a => Fin.ext (by match a with | ⟨0, _⟩ => rfl | ⟨1, _⟩ => rfl)
  have e3 : idx_main_v1 (idx_main_v2 (ix3 b s c)) = ix1 c :=
    funext fun a => Fin.ext (by match a with | ⟨0, _⟩ => rfl)
  rw [e3]
  exact congrArg (· + bias (ix1 c)) (Finset.sum_congr rfl fun k _ => by rw [e1, e2])

private theorem v5_at (b : Fin 2) (h : Fin 16) (s : Fin 2048) (d : Fin 64) :
    val_main_v5 (F := Ideal) x0 x1 x2 (ix4 b h s d) = proj x0 x1 x2 b s (col h d) := by
  rw [val_main_v5_apply, val_main_v4_apply, idx_split, val_main_v3_apply, val_main_v0_apply, val_main_v2_apply,
    val_main_v1_apply, Ideal.addf_def]
  exact rowcol x0 x1 x2 b s (col h d)

private theorem v11_at (b : Fin 2) (h : Fin 16) (s : Fin 2048) (d : Fin 64) :
    val_main_v11 (F := Ideal) x0 x3 x4 (ix4 b h s d) = proj x0 x3 x4 b s (col h d) := by
  rw [val_main_v11_apply, val_main_v10_apply, show idx_main_v10 (idx_main_v11 (ix4 b h s d)) = ix3 b s (col h d) from idx_split b h s d,
    val_main_v9_apply, val_main_v6_apply, val_main_v8_apply, val_main_v7_apply, Ideal.addf_def]
  exact rowcol x0 x3 x4 b s (col h d)

private theorem v17_at (b : Fin 2) (h : Fin 16) (s : Fin 2048) (d : Fin 64) :
    val_main_v17 (F := Ideal) x0 x5 x6 (ix4 b h s d) = proj x0 x5 x6 b s (col h d) := by
  rw [val_main_v17_apply, val_main_v16_apply, show idx_main_v16 (idx_main_v17 (ix4 b h s d)) = ix3 b s (col h d) from idx_split b h s d,
    val_main_v15_apply, val_main_v12_apply, val_main_v14_apply, val_main_v13_apply, Ideal.addf_def]
  exact rowcol x0 x5 x6 b s (col h d)

/-! ## Scores, the row maximum, the weights -/

private theorem v18_at (b : Fin 2) (h : Fin 16) (q k : Fin 2048) :
    val_main_v18 (F := Ideal) x0 x1 x2 x3 x4 (ix4 b h q k) = dotQK (proj x0 x1 x2) (proj x0 x3 x4) b h q k := by
  rw [val_main_v18_apply]
  unfold dotQK
  refine Finset.sum_congr rfl fun d _ => ?_
  have el : lidx_main_v18 (ix4 b h q k) d = ix4 b h q d :=
    funext fun a => Fin.ext (by match a with | ⟨0, _⟩ => rfl | ⟨1, _⟩ => rfl | ⟨2, _⟩ => rfl | ⟨3, _⟩ => rfl)
  have er : ridx_main_v18 (ix4 b h q k) d = ix4 b h k d :=
    funext fun a => Fin.ext (by match a with | ⟨0, _⟩ => rfl | ⟨1, _⟩ => rfl | ⟨2, _⟩ => rfl | ⟨3, _⟩ => rfl)
  rw [el, er, v5_at, v11_at]

private theorem v20_at (b : Fin 2) (h : Fin 16) (q k : Fin 2048) :
    val_main_v20 (F := Ideal) x0 x1 x2 x3 x4 (ix4 b h q k) = scoreR (proj x0 x1 x2) (proj x0 x3 x4) b h q k := by
  rw [val_main_v20_apply, v18_at, val_main_v19_apply, val_main_cst_apply, Ideal.hostDivf_def, Ideal.ofBits_def]
  rfl

/-- A reduced index (b, h, q) with the key `k` put back on the last axis is (b, h, q, k). -/
private theorem lift_at (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c
  refine Fin.ext ?_
  match c with
  | ⟨0, _⟩ => rfl
  | ⟨1, _⟩ => rfl
  | ⟨2, _⟩ => rfl
  | ⟨3, _⟩ => rfl

/-- The maximum over the keys, folded from `-∞`, is the row maximum of the scores. -/
private theorem v21_at (b : Fin 2) (h : Fin 16) (q : Fin 2048) :
    val_main_v21 (F := Ideal) x0 x1 x2 x3 x4 (ix3 b h q) = rowMax (scoreR (proj x0 x1 x2) (proj x0 x3 x4) b h q) := by
  have hr : S2x16x2048x2048.Reduces [3] S2x16x2048 := by decide
  unfold val_main_v21
  rw [Host.reduce_eq_fold_single FloatOps.maximumf _ _ reducesTo_S2x16x2048x2048_S2x16x2048_d3 hr h_S_]
  have hf : (val_main_v20 (F := Ideal) x0 x1 x2 x3 x4 ∘ hr.lift (ix3 b h q))
      = fun k : Fin 2048 => scoreR (proj x0 x1 x2) (proj x0 x3 x4) b h q k := funext fun k => by
    show val_main_v20 (F := Ideal) x0 x1 x2 x3 x4 (hr.lift (ix3 b h q) k) = _
    rw [lift_at hr b h q k, v20_at]
    rfl
  rw [hf]
  rfl

private theorem v23_at (b : Fin 2) (h : Fin 16) (q : Fin 2048) :
    val_main_v23 (F := Ideal) x0 x1 x2 x3 x4 (ix3 b h q) = rowMaxR (scoreR (proj x0 x1 x2) (proj x0 x3 x4) b h q) := by
  rw [val_main_v23_apply, v21_at, val_main_v22_apply, val_main_cst_1_apply, Ideal.maximumf_def, Ideal.ofBits_def]
  rfl

private theorem v25_at (b : Fin 2) (h : Fin 16) (q k : Fin 2048) :
    val_main_v25 (F := Ideal) x0 x1 x2 x3 x4 (ix4 b h q k) = rowMaxR (scoreR (proj x0 x1 x2) (proj x0 x3 x4) b h q) := by
  rw [val_main_v25_apply, val_main_v24_apply,
    show idx_main_v24 (idx_main_v25 (ix4 b h q k)) = ix3 b h q from
      funext fun a => Fin.ext (by match a with | ⟨0, _⟩ => rfl | ⟨1, _⟩ => rfl | ⟨2, _⟩ => rfl),
    v23_at]

private theorem v27_at (b : Fin 2) (h : Fin 16) (q k : Fin 2048) :
    val_main_v27 (F := Ideal) x0 x1 x2 x3 x4 (ix4 b h q k) = weightR (scoreR (proj x0 x1 x2) (proj x0 x3 x4) b h q) k := by
  rw [val_main_v27_apply, val_main_v26_apply, v20_at, v25_at, Ideal.hostUnary_exp_def, Ideal.subf_def]
  rfl

/-! ## The weights' sum, the normalised weights, the weighted combination -/

private theorem v28_at (b : Fin 2) (h : Fin 16) (q : Fin 2048) :
    val_main_v28 (F := Ideal) x0 x1 x2 x3 x4 (ix3 b h q)
      = Ideal.ofBits .f32 0x00000000#32 + ∑ k : Fin 2048, weightR (scoreR (proj x0 x1 x2) (proj x0 x3 x4) b h q) k := by
  rw [val_main_v28_apply, val_main_cst_2_apply, Ideal.ofBits_def]
  refine congrArg (_ + ·) (Finset.sum_congr rfl fun k _ => ?_)
  rw [show idx_main_v28 (ix3 b h q) k = ix4 b h q k from
      funext fun a => Fin.ext (by match a with | ⟨0, _⟩ => rfl | ⟨1, _⟩ => rfl | ⟨2, _⟩ => rfl | ⟨3, _⟩ => rfl),
    v27_at]

private theorem v31_at (b : Fin 2) (h : Fin 16) (q k : Fin 2048) :
    val_main_v31 (F := Ideal) x0 x1 x2 x3 x4 (ix4 b h q k) = softR (scoreR (proj x0 x1 x2) (proj x0 x3 x4) b h q) k := by
  rw [val_main_v31_apply, v27_at, val_main_v30_apply, val_main_v29_apply,
    show idx_main_v29 (idx_main_v30 (ix4 b h q k)) = ix3 b h q from
      funext fun a => Fin.ext (by match a with | ⟨0, _⟩ => rfl | ⟨1, _⟩ => rfl | ⟨2, _⟩ => rfl),
    v28_at, Ideal.hostDivf_def]
  rfl

private theorem v32_at (b : Fin 2) (h : Fin 16) (q : Fin 2048) (d : Fin 64) :
    val_main_v32 (F := Ideal) x0 x1 x2 x3 x4 x5 x6 (ix4 b h q d)
      = attnR (proj x0 x1 x2) (proj x0 x3 x4) (proj x0 x5 x6) b q h d := by
  rw [val_main_v32_apply]
  unfold attnR
  refine Finset.sum_congr rfl fun k _ => ?_
  have el : lidx_main_v32 (ix4 b h q d) k = ix4 b h q k :=
    funext fun a => Fin.ext (by match a with | ⟨0, _⟩ => rfl | ⟨1, _⟩ => rfl | ⟨2, _⟩ => rfl | ⟨3, _⟩ => rfl)
  have er : ridx_main_v32 (ix4 b h q d) k = ix4 b h k d :=
    funext fun a => Fin.ext (by match a with | ⟨0, _⟩ => rfl | ⟨1, _⟩ => rfl | ⟨2, _⟩ => rfl | ⟨3, _⟩ => rfl)
  rw [el, er, v31_at, v17_at]

end Stages

/-- The reference's last stage, read at the extended reals, is the reference's spelling of attention. -/
theorem val_eq_GR (x0 : (⟨S2x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v34 (F := Ideal) x0 x1 x2 x3 x4 x5 x6 = Cert.Attn.GR x0 x1 x2 x3 x4 x5 x6 := by
  funext i
  obtain ⟨b, s, c, rfl⟩ : ∃ b s c, i = ix3 b s c := ⟨i 0, i 1, i 2, eq_ix3 i⟩
  rw [val_main_v34_apply, idx_merge, val_main_v33_apply,
    show idx_main_v33 (ix4 b s (Cert.Attn.headOf c) (Cert.Attn.offOf c)) = ix4 b (Cert.Attn.headOf c) s (Cert.Attn.offOf c) from
      funext fun a => Fin.ext (by match a with | ⟨0, _⟩ => rfl | ⟨1, _⟩ => rfl | ⟨2, _⟩ => rfl | ⟨3, _⟩ => rfl),
    v32_at]
  rfl

end Cert.ReferenceIdeal.RefValue

end
-- ==== Proof.Bridge.lean ====
import proofs.«417899_j21706764714760_3_alg».proof.Proof.Spec

noncomputable section

namespace Cert.Attn

open Idealize.ShloMosaic Idealize.ShloMosaic.ValueIdx

/-! ## The four float patterns the two spellings read -/

/-- The pattern of -∞ denotes ⊥. -/
private theorem ofBits_negInf : Ideal.ofBits .f32 0xFF800000#32 = ⊥ := by
  simp [Ideal.ofBits, Ideal.ieee]

/-- The pattern of +0.0 denotes 0. -/
private theorem ofBits_zero : Ideal.ofBits .f32 0x00000000#32 = 0 := by
  simp [Ideal.ofBits, Ideal.ieee]

/-- The pattern of 2⁻¹² denotes the real 1/4096. -/
private theorem ofBits_scale : Ideal.ofBits .f32 0x39800000#32 = ((1 / 4096 : ℝ) : EReal) := by
  simp [Ideal.ofBits, Ideal.ieee, -EReal.coe_mul]; norm_num

/-- The pattern of 4096.0 denotes the real 4096. -/
private theorem ofBits_4096 : Ideal.ofBits .f32 0x45800000#32 = ((4096 : ℝ) : EReal) := by
  simp [Ideal.ofBits, Ideal.ieee, -EReal.coe_mul]; norm_num

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## What agrees on every input -/

/-- The two scalings are one: the quotient by 4096 is the product with 1/4096. -/
private theorem scoreR_eq_scoreK (Q K : Proj) (b : Fin 2) (h : Fin 16) (q : Fin 2048) :
    scoreR Q K b h q = scoreK Q K b h q := by
  funext k
  unfold scoreR scoreK
  rw [ofBits_4096, ofBits_scale, Ideal.div_coe (by norm_num)]

/-- The maximum once more against ⊥ changes nothing, so the two weights are one. -/
private theorem weightR_eq_weightK (s : Fin 2048 → EReal) (k : Fin 2048) : weightR s k = weightK s k := by
  unfold weightR weightK rowMaxR
  rw [ofBits_negInf, max_eq_right bot_le]

/-! ## Real inputs give real intermediate values -/

/-- A projected array of reals. -/
private abbrev ProjR : Type := Fin 2 → Fin 2048 → Fin 1024 → ℝ

/-- The projection, on the reals. -/
private def projR (x : (⟨3, ![2, 2048, 1024]⟩ : Shape).Idx → ℝ) (w : (⟨2, ![1024, 1024]⟩ : Shape).Idx → ℝ)
    (b : (⟨1, ![1024]⟩ : Shape).Idx → ℝ) : ProjR := fun bi s c =>
  (∑ i : Fin 1024, x (ix3 bi s i) * w (ix2 i c)) + b (ix1 c)

/-- The projection of coerced reals is the coercion of the real projection. -/
private theorem proj_coe (x : (⟨3, ![2, 2048, 1024]⟩ : Shape).Idx → ℝ)
    (w : (⟨2, ![1024, 1024]⟩ : Shape).Idx → ℝ) (b : (⟨1, ![1024]⟩ : Shape).Idx → ℝ) :
    proj (fun i => (x i : EReal)) (fun i => (w i : EReal)) (fun i => (b i : EReal))
      = fun bi s c => ((projR x w b bi s c : ℝ) : EReal) := by
  funext bi s c
  simp only [proj, projR, EReal.coe_add, coe_sum, EReal.coe_mul]

/-- A row of scaled scores of real projections is a row of reals. -/
private theorem scoreK_real (Q K : ProjR) (b : Fin 2) (h : Fin 16) (q : Fin 2048) :
    ∃ t : Fin 2048 → ℝ,
      scoreK (fun b s c => (Q b s c : EReal)) (fun b s c => (K b s c : EReal)) b h q = fun k => (t k : EReal) := by
  refine ⟨fun k => (∑ d : Fin 64, Q b q (col h d) * K b k (col h d)) * (1 / 4096), ?_⟩
  funext k
  simp only [scoreK, dotQK, ofBits_scale, EReal.coe_mul, coe_sum]

/-- The maximum of a row of reals is a real: it is below ⊤ as every entry is, and above ⊥ as the first entry is. -/
private theorem rowMax_real (t : Fin 2048 → ℝ) : ∃ m : ℝ, rowMax (fun k => (t k : EReal)) = (m : EReal) := by
  have h1 : rowMax (fun k => (t k : EReal)) ≠ ⊤ := by
    apply ne_of_lt
    unfold rowMax
    rw [Finset.fold_max_lt]
    exact ⟨by rw [ofBits_negInf]; exact bot_lt_top, fun x _ => EReal.coe_lt_top _⟩
  have h2 : rowMax (fun k => (t k : EReal)) ≠ ⊥ := by
    apply ne_of_gt
    unfold rowMax
    rw [Finset.lt_fold_max]
    exact Or.inr ⟨0, Finset.mem_univ _, EReal.bot_lt_coe _⟩
  exact ⟨(rowMax _).toReal, (EReal.coe_toReal h1 h2).symm⟩

/-- The weights of a row of reals are positive reals. -/
private theorem weightK_real (t : Fin 2048 → ℝ) :
    ∃ w : Fin 2048 → ℝ, (∀ k, 0 < w k) ∧ ∀ k, weightK (fun k => (t k : EReal)) k = (w k : EReal) := by
  obtain ⟨m, hm⟩ := rowMax_real t
  refine ⟨fun k => Real.exp (t k - m), fun k => Real.exp_pos _, fun k => ?_⟩
  unfold weightK
  rw [hm, ← EReal.coe_sub, Ideal.exp_coe]

/-! ## Where the normalisation sits -/

/-- With positive real weights and real values, dividing the weighted sum by the weights' sum is the sum of the
    values against the divided weights: both are the real (∑ w k · v k) / (∑ w k). -/
private theorem normalise_core (w v : Fin 2048 → ℝ) (hw : ∀ k, 0 < w k) :
    Ideal.div (∑ k : Fin 2048, (w k : EReal) * (v k : EReal)) (∑ k : Fin 2048, (w k : EReal))
      = ∑ k : Fin 2048, Ideal.div (w k : EReal) (0 + ∑ k' : Fin 2048, (w k' : EReal)) * (v k : EReal) := by
  have hL : (0 : ℝ) < ∑ k : Fin 2048, w k := Finset.sum_pos (fun k _ => hw k) Finset.univ_nonempty
  rw [zero_add, ← coe_sum]
  simp only [Ideal.div_coe hL.ne']
  simp only [← EReal.coe_mul, ← coe_sum]
  rw [Finset.sum_mul]
  congr 1
  apply Finset.sum_congr rfl
  intro k _
  ring

/-- The two attentions agree on real projections. -/
private theorem attn_eq (Q K V : ProjR) (b : Fin 2) (q : Fin 2048) (h : Fin 16) (d : Fin 64) :
    attnK (fun b s c => (Q b s c : EReal)) (fun b s c => (K b s c : EReal)) (fun b s c => (V b s c : EReal)) b q h d
      = attnR (fun b s c => (Q b s c : EReal)) (fun b s c => (K b s c : EReal)) (fun b s c => (V b s c : EReal))
          b q h d := by
  unfold attnK attnR softR
  rw [scoreR_eq_scoreK]
  obtain ⟨t, ht⟩ := scoreK_real Q K b h q
  rw [ht]
  obtain ⟨w, hw, hwe⟩ := weightK_real t
  simp only [weightR_eq_weightK, hwe, ofBits_zero]
  exact normalise_core w _ hw

/-- On real-valued inputs the two spellings of attention are one function. -/
theorem GK_eq_GR_of_real (x : (⟨3, ![2, 2048, 1024]⟩ : Shape).Idx → ℝ)
    (wq : (⟨2, ![1024, 1024]⟩ : Shape).Idx → ℝ) (bq : (⟨1, ![1024]⟩ : Shape).Idx → ℝ)
    (wk : (⟨2, ![1024, 1024]⟩ : Shape).Idx → ℝ) (bk : (⟨1, ![1024]⟩ : Shape).Idx → ℝ)
    (wv : (⟨2, ![1024, 1024]⟩ : Shape).Idx → ℝ) (bv : (⟨1, ![1024]⟩ : Shape).Idx → ℝ) :
    GK (fun i => (x i : EReal)) (fun i => (wq i : EReal)) (fun i => (bq i : EReal)) (fun i => (wk i : EReal))
        (fun i => (bk i : EReal)) (fun i => (wv i : EReal)) (fun i => (bv i : EReal))
      = GR (fun i => (x i : EReal)) (fun i => (wq i : EReal)) (fun i => (bq i : EReal)) (fun i => (wk i : EReal))
        (fun i => (bk i : EReal)) (fun i => (wv i : EReal)) (fun i => (bv i : EReal)) := by
  funext i
  unfold GK GR
  rw [proj_coe, proj_coe, proj_coe]
  exact attn_eq _ _ _ _ _ _ _

end Cert.Attn

end
-- ==== Proof.Finite.lean ====
import proofs.«417899_j21706764714760_3_alg».proof.Pre_finite_inputs
import Idealize.ShloMosaic.PureOps.Ideal
import Idealize.ShloMosaic.Lib.ValueIdx
import Idealize.ShloMosaic.Lib.ReduceAll

noncomputable section

namespace Cert.Attn.Finite

open Idealize.ShloMosaic Idealize.ShloMosaic.ValueIdx Cert.Pre_finite_inputs

/-- The rank-zero shape has one index. -/
private instance subsingleton_scalarIdx : Subsingleton S_.Idx := ⟨fun _ _ => funext fun d => d.elim0⟩

/-- An extended real whose absolute value `max x (-x)` lies strictly below `+∞` is neither infinity: it is a real. -/
private theorem real_of_abs_lt_top (x : EReal) (h : max x (-x) < ⊤) : ∃ r : ℝ, x = (r : EReal) := by
  obtain ⟨h1, h2⟩ := max_lt_iff.1 h
  induction x using EReal.rec with
  | bot => exact absurd h2 (by simp)
  | coe r => exact ⟨r, rfl⟩
  | top => exact absurd h1 (lt_irrefl _)

/-- The pattern `0x7F800000` denotes `+∞`. -/
private theorem ofBits_inf : Ideal.ofBits .f32 0x7F800000#32 = (⊤ : EReal) := by
  simp [Ideal.ofBits, Ideal.ieee]

/-- One argument's conjunct: where `|a| < +∞` holds at every index (the conjunction over all axes is one),
    every entry of `a` is a real. -/
private theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] hb (constant (F := Ideal) S_ .f32 0x7F800000#32))) init hr hu j
        = 1#1) :
    ∃ x : s.Idx → ℝ, a = fun i => (x i : EReal) := by
  have hall : ∀ i : s.Idx, ∃ r : ℝ, a i = (r : EReal) := by
    intro i
    have hi := Host.reduce_andi_all _ init hr hu j e i
    refine real_of_abs_lt_top (a i) ?_
    have hi' : Ideal.cmp .olt (max (a i) (-(a i))) (Ideal.ofBits .f32 0x7F800000#32) = 1#1 := hi
    rw [ofBits_inf] at hi'
    by_contra hn
    simp [Ideal.cmp, hn] at hi'
  choose x hx using hall
  exact ⟨x, funext hx⟩

/-- Where the printed finiteness predicate is all ones, every entry of every argument is a real number. -/
theorem real_of_pre [Cert.Pre_finite_inputs.Facts]
    (a0 : FVec Ideal S2x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∃ x : S2x2048x1024.Idx → ℝ, a0 = fun i => (x i : EReal))
      ∧ (∃ x : S1024x1024.Idx → ℝ, a1 = fun i => (x i : EReal))
      ∧ (∃ x : S1024.Idx → ℝ, a2 = fun i => (x i : EReal))
      ∧ (∃ x : S1024x1024.Idx → ℝ, a3 = fun i => (x i : EReal))
      ∧ (∃ x : S1024.Idx → ℝ, a4 = fun i => (x i : EReal))
      ∧ (∃ x : S1024x1024.Idx → ℝ, a5 = fun i => (x i : EReal))
      ∧ (∃ x : S1024.Idx → ℝ, a6 = fun i => (x i : EReal)) := by
  have h0 := congrFun h ValueIdx.ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6⟩

end Cert.Attn.Finite

end
-- ==== Proof.lean ====
/-
  Multi-head self-attention (2 × 2048 × 1024 activations, 16 heads of width 64): a Pallas kernel program of two
  pallas_calls — one fused projection  X · [Wq | Wk | Wv] + [bq | bk | bv]  split into its three column thirds, then
  attention per pair of heads with the softmax's normalisation applied AFTER the product with the values — against the
  jnp reference, which projects three times, divides the scores by 4096, normalises the weights and then multiplies
  them into the values.

  The three frames: each kernel program's run is proved from its two regions' own bodies (modules K/ and KI/: the
  projection body and the attention body run symbolically over whole staging buffers, the program as four segments);
  the reference's is its generated run. The idealization rewrote nothing, so `preserves` is `True`.

  The algebraic claim. At the extended reals the kernel's result array is `Cert.Attn.GK` of the arguments (module
  KernelValue: the attention region's output array read block by block, the host reshapes and concatenations read at
  an index, the projection region's arrays as sums) and the reference's is `Cert.Attn.GR` (module RefValue, over the
  generated stage-by-stage reading). The two differ in where the softmax's normalisation sits, which agree only where
  the weights' sum is a nonzero real and the summands are reals: the precondition makes every input entry a real (module
  Finite), and on real inputs GK = GR (module Bridge).
-/
import proofs.«417899_j21706764714760_3_alg».proof.Defs
import proofs.«417899_j21706764714760_3_alg».proof.Proof.Gen.Kernel
import proofs.«417899_j21706764714760_3_alg».proof.Proof.Gen.KernelIdeal
import proofs.«417899_j21706764714760_3_alg».proof.Proof.Gen.ReferenceIdeal
import proofs.«417899_j21706764714760_3_alg».proof.Proof.Gen.Pre_finite_inputs
import proofs.«417899_j21706764714760_3_alg».proof.Proof.K.Run
import proofs.«417899_j21706764714760_3_alg».proof.Proof.KI.Run
import proofs.«417899_j21706764714760_3_alg».proof.Proof.KernelValue
import proofs.«417899_j21706764714760_3_alg».proof.Proof.RefValue
import proofs.«417899_j21706764714760_3_alg».proof.Proof.Bridge
import proofs.«417899_j21706764714760_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: its run, the result forgotten. -/
theorem frame_k : Cert.frame_Kernel := fun m ρ _ =>
  (θ_run Cert.Kernel.defs _ _).mono (fun _ h c => (h c).2) (Cert.Kernel.Hand.run_main (F := Bits) m ρ)

/-- The idealized kernel program likewise. -/
theorem frame_ki : Cert.frame_KernelIdeal := fun m ρ _ =>
  (θ_run Cert.KernelIdeal.defs _ _).mono (fun _ h c => (h c).2) (Cert.KernelIdeal.Hand.run_main (F := Ideal) m ρ)

/-- The reference: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result array at the kernel's
    spelling of attention of the arguments: the kernel by its value, the reference because on the real-valued inputs
    the precondition admits its own spelling is the same function. -/
theorem algebraic : Cert.algebraic_KernelIdeal_ReferenceIdeal := by
  intro m ρ m' ρ' hpre hagree
  refine ⟨fun c => Cert.Attn.GK (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.HandValue.kernel_value m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    beta_reduce
    rw [Cert.ReferenceIdeal.Read.val_main_v34_eq, Cert.ReferenceIdeal.RefValue.val_eq_GR,
      (hagree c).1, (hagree c).2.1, (hagree c).2.2.1, (hagree c).2.2.2.1, (hagree c).2.2.2.2.1,
      (hagree c).2.2.2.2.2.1, (hagree c).2.2.2.2.2.2]
    obtain ⟨⟨x, hx⟩, ⟨wq, hwq⟩, ⟨bq, hbq⟩, ⟨wk, hwk⟩, ⟨bk, hbk⟩, ⟨wv, hwv⟩, ⟨bv, hbv⟩⟩ :=
      Cert.Attn.Finite.real_of_pre _ _ _ _ _ _ _ (hpre c)
    rw [hx, hwq, hbq, hwk, hbk, hwv, hbv]
    exact (Cert.Attn.GK_eq_GR_of_real x wq bq wk bk wv bv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
